-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "fold_c_268435456_13421773" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x32x128 : Shape := ⟨3, ![64, 32, 128]⟩
abbrev S64x256x128 : Shape := ⟨3, ![64, 256, 128]⟩
abbrev S64 : Shape := ⟨1, ![64]⟩
abbrev S_ : Shape := ⟨0, ![]⟩

class Facts : Prop where
  bcast_S_S64x32x128 : S_.BroadcastsInDim S64x32x128 (![] : Fin 0 → Fin S64x32x128.rank)
  reducesTo_S64x32x128_S_d0_1_2 : S64x32x128.ReducesTo [0, 1, 2] S_
  h_S_ : 0 < S_.numel
  bcast_S_S64x256x128 : S_.BroadcastsInDim S64x256x128 (![] : Fin 0 → Fin S64x256x128.rank)
  reducesTo_S64x256x128_S_d0_1_2 : S64x256x128.ReducesTo [0, 1, 2] S_

variable [Facts]

def fn {F : FTy → Type} [FloatOps F] (main_arg0 : FVec F S64x32x128 .f32) (main_arg1 : FVec F S64x256x128 .f32) (main_arg2 : FVec F S64x256x128 .f32) (main_arg3 : IVec S64 32) : IVec S_ 1 :=
  let main_v0 : FVec F S64x32x128 .f32 := Host.absf main_arg0
  let main_cst : FVec F S_ .f32 := constant S_ .f32 0x7F800000#32
  let main_v1 : FVec F S64x32x128 .f32 := broadcastInDim S64x32x128 ![] bcast_S_S64x32x128 main_cst
  let main_v2 : IVec S64x32x128 1 := cmpf .olt main_v0 main_v1
  let main_c : IVec S_ 1 := constantI S_ 1 1#1
  let main_v3 : IVec S_ 1 := (fun x v => Host.reduce IntOp.andi x v reducesTo_S64x32x128_S_d0_1_2 h_S_) main_v2 main_c
  let main_v4 : FVec F S64x256x128 .f32 := Host.absf main_arg1
  let main_cst_0 : FVec F S_ .f32 := constant S_ .f32 0x7F800000#32
  let main_v5 : FVec F S64x256x128 .f32 := broadcastInDim S64x256x128 ![] bcast_S_S64x256x128 main_cst_0
  let main_v6 : IVec S64x256x128 1 := cmpf .olt main_v4 main_v5
  let main_c_1 : IVec S_ 1 := constantI S_ 1 1#1
  let main_v7 : IVec S_ 1 := (fun x v => Host.reduce IntOp.andi x v reducesTo_S64x256x128_S_d0_1_2 h_S_) main_v6 main_c_1
  let main_v8 : IVec S_ 1 := andi main_v3 main_v7
  let main_v9 : FVec F S64x256x128 .f32 := Host.absf main_arg2
  let main_cst_2 : FVec F S_ .f32 := constant S_ .f32 0x7F800000#32
  let main_v10 : FVec F S64x256x128 .f32 := broadcastInDim S64x256x128 ![] bcast_S_S64x256x128 main_cst_2
  let main_v11 : IVec S64x256x128 1 := cmpf .olt main_v9 main_v10
  let main_c_3 : IVec S_ 1 := constantI S_ 1 1#1
  let main_v12 : IVec S_ 1 := (fun x v => Host.reduce IntOp.andi x v reducesTo_S64x256x128_S_d0_1_2 h_S_) main_v11 main_c_3
  let main_v13 : IVec S_ 1 := andi main_v8 main_v12
  main_v13
-- ==== Kernel.lean ====
abbrev S64x32x128 : Shape := ⟨3, ![64, 32, 128]⟩
abbrev S64x256x128 : Shape := ⟨3, ![64, 256, 128]⟩
abbrev S64 : Shape := ⟨1, ![64]⟩
abbrev S64x128 : Shape := ⟨2, ![64, 128]⟩
abbrev S32x32x128 : Shape := ⟨3, ![32, 32, 128]⟩
abbrev S32x128 : Shape := ⟨2, ![32, 128]⟩
abbrev S64x32x1 : Shape := ⟨3, ![64, 32, 1]⟩
abbrev S8x256x128 : Shape := ⟨3, ![8, 256, 128]⟩
abbrev S8x256 : Shape := ⟨2, ![8, 256]⟩
abbrev S8x256x1 : Shape := ⟨3, ![8, 256, 1]⟩
abbrev S32x32 : Shape := ⟨2, ![32, 32]⟩
abbrev S32x32x1 : Shape := ⟨3, ![32, 32, 1]⟩
abbrev S1024x128 : Shape := ⟨2, ![1024, 128]⟩
abbrev S1x256x128 : Shape := ⟨3, ![1, 256, 128]⟩
abbrev S256x128 : Shape := ⟨2, ![256, 128]⟩
abbrev S1024x256 : Shape := ⟨2, ![1024, 256]⟩
abbrev S32x32x256 : Shape := ⟨3, ![32, 32, 256]⟩
abbrev S32 : Shape := ⟨1, ![32]⟩
abbrev S32x1 : Shape := ⟨2, ![32, 1]⟩
abbrev S1x32x1 : Shape := ⟨3, ![1, 32, 1]⟩
abbrev S64x32 : Shape := ⟨2, ![64, 32]⟩
abbrev S32x64 : Shape := ⟨2, ![32, 64]⟩
abbrev S64x1 : Shape := ⟨2, ![64, 1]⟩
abbrev S1x64 : Shape := ⟨2, ![1, 64]⟩
abbrev S64x64 : Shape := ⟨2, ![64, 64]⟩
abbrev S_ : Shape := ⟨0, ![]⟩
abbrev S1 : Shape := ⟨1, ![1]⟩
abbrev S64x2 : Shape := ⟨2, ![64, 2]⟩

abbrev nBuf : Space → Nat
  | .hbm => 66
  | .vmem => 10
  | .smem => 0
  | _ => 0

abbrev bufTy : (tb : Table) → Fin (tcTables nBuf tb) → BufTy
  | .hbm, ⟨0, _⟩ => ⟨S64x32x128, .f32⟩
  | .hbm, ⟨1, _⟩ => ⟨S64x256x128, .f32⟩
  | .hbm, ⟨2, _⟩ => ⟨S64x256x128, .f32⟩
  | .hbm, ⟨3, _⟩ => ⟨S64, .i32⟩
  | .hbm, ⟨4, _⟩ => ⟨S64x128, .f32⟩
  | .hbm, ⟨5, _⟩ => ⟨S64x1, .i32⟩
  | .hbm, ⟨6, _⟩ => ⟨S1x64, .i32⟩
  | .hbm, ⟨7, _⟩ => ⟨S64x64, .i32⟩
  | .hbm, ⟨8, _⟩ => ⟨S64x64, .i32⟩
  | .hbm, ⟨9, _⟩ => ⟨S64x64, .i1⟩
  | .hbm, ⟨10, _⟩ => ⟨S64x64, .i32⟩
  | .hbm, ⟨11, _⟩ => ⟨S64x64, .i32⟩
  | .hbm, ⟨12, _⟩ => ⟨S_, .i32⟩
  | .hbm, ⟨13, _⟩ => ⟨S64x64, .i32⟩
  | .hbm, ⟨14, _⟩ => ⟨S64x64, .i32⟩
  | .hbm, ⟨15, _⟩ => ⟨S64x64, .i1⟩
  | .hbm, ⟨16, _⟩ => ⟨S64x64, .i1⟩
  | .hbm, ⟨17, _⟩ => ⟨S64x64, .i1⟩
  | .hbm, ⟨18, _⟩ => ⟨S64x64, .f32⟩
  | .hbm, ⟨19, _⟩ => ⟨S_, .f32⟩
  | .hbm, ⟨20, _⟩ => ⟨S_, .f32⟩
  | .hbm, ⟨21, _⟩ => ⟨S64x64, .f32⟩
  | .hbm, ⟨22, _⟩ => ⟨S64x64, .f32⟩
  | .hbm, ⟨23, _⟩ => ⟨S_, .i32⟩
  | .hbm, ⟨24, _⟩ => ⟨S1, .i32⟩
  | .hbm, ⟨25, _⟩ => ⟨S64x128, .f32⟩
  | .hbm, ⟨26, _⟩ => ⟨S_, .f32⟩
  | .hbm, ⟨27, _⟩ => ⟨S64, .f32⟩
  | .hbm, ⟨28, _⟩ => ⟨S_, .f32⟩
  | .hbm, ⟨29, _⟩ => ⟨S64, .f32⟩
  | .hbm, ⟨30, _⟩ => ⟨S64, .f32⟩
  | .hbm, ⟨31, _⟩ => ⟨S64x1, .f32⟩
  | .hbm, ⟨32, _⟩ => ⟨S64x128, .f32⟩
  | .hbm, ⟨33, _⟩ => ⟨S64x128, .f32⟩
  | .hbm, ⟨34, _⟩ => ⟨S64x128, .f32⟩
  | .hbm, ⟨35, _⟩ => ⟨S_, .f32⟩
  | .hbm, ⟨36, _⟩ => ⟨S64, .f32⟩
  | .hbm, ⟨37, _⟩ => ⟨S64x1, .f32⟩
  | .hbm, ⟨38, _⟩ => ⟨S64x1, .f32⟩
  | .hbm, ⟨39, _⟩ => ⟨S64x128, .f32⟩
  | .hbm, ⟨40, _⟩ => ⟨S64x128, .f32⟩
  | .hbm, ⟨41, _⟩ => ⟨S64, .i32⟩
  | .hbm, ⟨42, _⟩ => ⟨S64, .i32⟩
  | .hbm, ⟨43, _⟩ => ⟨S_, .i32⟩
  | .hbm, ⟨44, _⟩ => ⟨S64, .i32⟩
  | .hbm, ⟨45, _⟩ => ⟨S64, .i1⟩
  | .hbm, ⟨46, _⟩ => ⟨S_, .i32⟩
  | .hbm, ⟨47, _⟩ => ⟨S64, .i32⟩
  | .hbm, ⟨48, _⟩ => ⟨S64, .i32⟩
  | .hbm, ⟨49, _⟩ => ⟨S64, .i32⟩
  | .hbm, ⟨50, _⟩ => ⟨S_, .i32⟩
  | .hbm, ⟨51, _⟩ => ⟨S64, .i32⟩
  | .hbm, ⟨52, _⟩ => ⟨S64, .i1⟩
  | .hbm, ⟨53, _⟩ => ⟨S_, .i32⟩
  | .hbm, ⟨54, _⟩ => ⟨S64, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S64x1, .i32⟩
  | .hbm, ⟨59, _⟩ => ⟨S64x2, .i32⟩
  | .hbm, ⟨60, _⟩ => ⟨S64, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .local _ .vmem, ⟨0, _⟩ => ⟨S32x32x128, .f32⟩
  | .local _ .vmem, ⟨1, _⟩ => ⟨S32x32x128, .f32⟩
  | .local _ .vmem, ⟨2, _⟩ => ⟨S64x256x128, .f32⟩
  | .local _ .vmem, ⟨3, _⟩ => ⟨S64x256x128, .f32⟩
  | .local _ .vmem, ⟨4, _⟩ => ⟨S32x128, .f32⟩
  | .local _ .vmem, ⟨5, _⟩ => ⟨S32x128, .f32⟩
  | .local _ .vmem, ⟨6, _⟩ => ⟨S64x256x128, .bf16⟩
  | .local _ .vmem, ⟨7, _⟩ => ⟨S64x256x128, .bf16⟩
  | .local _ .vmem, ⟨8, _⟩ => ⟨S64x32x1, .f32⟩
  | .local _ .vmem, ⟨9, _⟩ => ⟨S64x32x1, .f32⟩
  | _, _ => ⟨S64x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_call0_v0 : Ref sig .tc := ⟨.hbm, 20, rfl⟩
abbrev main_call0_v1 : Ref sig .tc := ⟨.hbm, 21, rfl⟩
abbrev main_v14 : Ref sig .tc := ⟨.hbm, 22, rfl⟩
abbrev main_c_0 : Ref sig .tc := ⟨.hbm, 23, rfl⟩
abbrev main_v15 : Ref sig .tc := ⟨.hbm, 24, rfl⟩
abbrev main_v16 : Ref sig .tc := ⟨.hbm, 25, rfl⟩
abbrev main_call1_cst : Ref sig .tc := ⟨.hbm, 26, rfl⟩
abbrev main_call1_v0 : Ref sig .tc := ⟨.hbm, 27, rfl⟩
abbrev main_call1_cst_0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_call1_v5 : Ref sig .tc := ⟨.hbm, 33, rfl⟩
abbrev main_call1_v6 : Ref sig .tc := ⟨.hbm, 34, rfl⟩
abbrev main_call1_cst_1 : Ref sig .tc := ⟨.hbm, 35, rfl⟩
abbrev main_call1_v7 : Ref sig .tc := ⟨.hbm, 36, rfl⟩
abbrev main_call1_v8 : Ref sig .tc := ⟨.hbm, 37, rfl⟩
abbrev main_call1_v9 : Ref sig .tc := ⟨.hbm, 38, rfl⟩
abbrev main_call1_v10 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_c_1 : Ref sig .tc := ⟨.hbm, 43, rfl⟩
abbrev main_v20 : Ref sig .tc := ⟨.hbm, 44, rfl⟩
abbrev main_v21 : Ref sig .tc := ⟨.hbm, 45, rfl⟩
abbrev main_c_2 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_3 : Ref sig .tc := ⟨.hbm, 50, rfl⟩
abbrev main_v25 : Ref sig .tc := ⟨.hbm, 51, rfl⟩
abbrev main_v26 : Ref sig .tc := ⟨.hbm, 52, rfl⟩
abbrev main_c_4 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst_5 : Ref sig .tc := ⟨.hbm, 61, rfl⟩
abbrev main_v34 : Ref sig .tc := ⟨.hbm, 62, rfl⟩
abbrev main_cst_6 : Ref sig .tc := ⟨.hbm, 63, rfl⟩
abbrev main_v35 : Ref sig .tc := ⟨.hbm, 64, rfl⟩
abbrev main_v36 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

@[reducible] def k0_t1_loop : Scf.Loop 32 :=
  let c0_i32 : BitVec 32 := 0#32
  let c64_i32 : BitVec 32 := 64#32
  let v219 : BitVec 32 := Scalar.addi c0_i32 c64_i32
  let c1_i32 : BitVec 32 := 1#32
  ⟨c0_i32, v219, c1_i32⟩
def k0_off1 (k0_t1 : Fin k0_t1_loop.trips) : Fin 3 → Nat :=
  let c0_i32_139 : BitVec 32 := 0#32
  let c0_i32 : BitVec 32 := 0#32
  let c1_i32 : BitVec 32 := 1#32
  let arg9 : BitVec 32 := Scf.iv c0_i32 c1_i32 k0_t1
  let c1_i32_138 : BitVec 32 := 1#32
  let v231 : BitVec 32 := Scalar.muli arg9 c1_i32_138
  let v232 : BitVec 32 := Scalar.addi c0_i32_139 v231
  let v233 : Index := Scalar.indexCast v232
  let c0_140 : Index := 0#32
  let c0_141 : Index := 0#32
  ![v233.toNat, 0, 0]
def k0_off2 (k0_t1 : Fin k0_t1_loop.trips) : Fin 3 → Nat :=
  let c0_i32_139 : BitVec 32 := 0#32
  let c0_i32 : BitVec 32 := 0#32
  let c1_i32 : BitVec 32 := 1#32
  let arg9 : BitVec 32 := Scf.iv c0_i32 c1_i32 k0_t1
  let c1_i32_138 : BitVec 32 := 1#32
  let v231 : BitVec 32 := Scalar.muli arg9 c1_i32_138
  let v232 : BitVec 32 := Scalar.addi c0_i32_139 v231
  let v243 : Index := Scalar.indexCast v232
  let c0_146 : Index := 0#32
  let c0_147 : Index := 0#32
  ![v243.toNat, 0, 0]
@[reducible] def k0_t2_loop : Scf.Loop 32 :=
  let c0_i32_125 : BitVec 32 := 0#32
  let c64_i32_126 : BitVec 32 := 64#32
  let v220 : BitVec 32 := Scalar.addi c0_i32_125 c64_i32_126
  let c1_i32_127 : BitVec 32 := 1#32
  ⟨c0_i32_125, v220, c1_i32_127⟩
def k0_off3 (k0_t2 : Fin k0_t2_loop.trips) : Fin 3 → Nat :=
  let c0_i32_139 : BitVec 32 := 0#32
  let c0_i32_125 : BitVec 32 := 0#32
  let c1_i32_127 : BitVec 32 := 1#32
  let arg9 : BitVec 32 := Scf.iv c0_i32_125 c1_i32_127 k0_t2
  let c1_i32_138 : BitVec 32 := 1#32
  let v231 : BitVec 32 := Scalar.muli arg9 c1_i32_138
  let v232 : BitVec 32 := Scalar.addi c0_i32_139 v231
  let v233 : Index := Scalar.indexCast v232
  let c0_140 : Index := 0#32
  let c0_141 : Index := 0#32
  ![v233.toNat, 0, 0]
def k0_off4 (k0_t2 : Fin k0_t2_loop.trips) : Fin 3 → Nat :=
  let c0_i32_139 : BitVec 32 := 0#32
  let c0_i32_125 : BitVec 32 := 0#32
  let c1_i32_127 : BitVec 32 := 1#32
  let arg9 : BitVec 32 := Scf.iv c0_i32_125 c1_i32_127 k0_t2
  let c1_i32_138 : BitVec 32 := 1#32
  let v231 : BitVec 32 := Scalar.muli arg9 c1_i32_138
  let v232 : BitVec 32 := Scalar.addi c0_i32_139 v231
  let v243 : Index := Scalar.indexCast v232
  let c0_146 : Index := 0#32
  let c0_147 : Index := 0#32
  ![v243.toNat, 0, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x32x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S64x256x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S32x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S64x256x128_S8x256x128_0_0_0 : ∀ a, (![0, 0, 0] : Fin 3 → Nat) a + S8x256x128.size a ≤ S64x256x128.size a
  h_S8x256x128 : 0 < S8x256x128.numel
  reduces_S8x256x128_S8x256 : S8x256x128.Reduces [2] S8x256
  shapeCasts_S8x256_S8x256x1 : S8x256.ShapeCasts S8x256x1
  broadcasts_S8x256x1_S8x256x128 : S8x256x1.Broadcasts S8x256x128
  bitsLt_bf16_f32 : FTy.bits .bf16 < FTy.bits .f32
  shapeCasts_S8x256x128_S8x256x128 : S8x256x128.ShapeCasts S8x256x128
  packedbf16_S64x256x128_S8x256x128_0_0_0 : (Rect.unit (s := S64x256x128) ![0, 0, 0] S8x256x128.size inb_S64x256x128_S8x256x128_0_0_0).PackedRows (EltTy.packing .bf16)
  inb_S64x256x128_S8x256x128_8_0_0 : ∀ a, (![8, 0, 0] : Fin 3 → Nat) a + S8x256x128.size a ≤ S64x256x128.size a
  packedbf16_S64x256x128_S8x256x128_8_0_0 : (Rect.unit (s := S64x256x128) ![8, 0, 0] S8x256x128.size inb_S64x256x128_S8x256x128_8_0_0).PackedRows (EltTy.packing .bf16)
  inb_S64x256x128_S8x256x128_16_0_0 : ∀ a, (![16, 0, 0] : Fin 3 → Nat) a + S8x256x128.size a ≤ S64x256x128.size a
  packedbf16_S64x256x128_S8x256x128_16_0_0 : (Rect.unit (s := S64x256x128) ![16, 0, 0] S8x256x128.size inb_S64x256x128_S8x256x128_16_0_0).PackedRows (EltTy.packing .bf16)
  inb_S64x256x128_S8x256x128_24_0_0 : ∀ a, (![24, 0, 0] : Fin 3 → Nat) a + S8x256x128.size a ≤ S64x256x128.size a
  packedbf16_S64x256x128_S8x256x128_24_0_0 : (Rect.unit (s := S64x256x128) ![24, 0, 0] S8x256x128.size inb_S64x256x128_S8x256x128_24_0_0).PackedRows (EltTy.packing .bf16)
  inb_S64x256x128_S8x256x128_32_0_0 : ∀ a, (![32, 0, 0] : Fin 3 → Nat) a + S8x256x128.size a ≤ S64x256x128.size a
  packedbf16_S64x256x128_S8x256x128_32_0_0 : (Rect.unit (s := S64x256x128) ![32, 0, 0] S8x256x128.size inb_S64x256x128_S8x256x128_32_0_0).PackedRows (EltTy.packing .bf16)
  inb_S64x256x128_S8x256x128_40_0_0 : ∀ a, (![40, 0, 0] : Fin 3 → Nat) a + S8x256x128.size a ≤ S64x256x128.size a
  packedbf16_S64x256x128_S8x256x128_40_0_0 : (Rect.unit (s := S64x256x128) ![40, 0, 0] S8x256x128.size inb_S64x256x128_S8x256x128_40_0_0).PackedRows (EltTy.packing .bf16)
  inb_S64x256x128_S8x256x128_48_0_0 : ∀ a, (![48, 0, 0] : Fin 3 → Nat) a + S8x256x128.size a ≤ S64x256x128.size a
  packedbf16_S64x256x128_S8x256x128_48_0_0 : (Rect.unit (s := S64x256x128) ![48, 0, 0] S8x256x128.size inb_S64x256x128_S8x256x128_48_0_0).PackedRows (EltTy.packing .bf16)
  inb_S64x256x128_S8x256x128_56_0_0 : ∀ a, (![56, 0, 0] : Fin 3 → Nat) a + S8x256x128.size a ≤ S64x256x128.size a
  packedbf16_S64x256x128_S8x256x128_56_0_0 : (Rect.unit (s := S64x256x128) ![56, 0, 0] S8x256x128.size inb_S64x256x128_S8x256x128_56_0_0).PackedRows (EltTy.packing .bf16)
  inb_S32x32x128_S32x32x128_0_0_0 : ∀ a, (![0, 0, 0] : Fin 3 → Nat) a + S32x32x128.size a ≤ S32x32x128.size a
  h_S32x32x128 : 0 < S32x32x128.numel
  reduces_S32x32x128_S32x32 : S32x32x128.Reduces [2] S32x32
  shapeCasts_S32x32_S32x32x1 : S32x32.ShapeCasts S32x32x1
  broadcasts_S32x32x1_S32x32x128 : S32x32x1.Broadcasts S32x32x128
  shapeCasts_S32x32x128_S1024x128 : S32x32x128.ShapeCasts S1024x128
  h_S1x256x128 : 0 < S1x256x128.numel
  shapeCasts_S1x256x128_S256x128 : S1x256x128.ShapeCasts S256x128
  shapeCasts_S1024x256_S32x32x256 : S1024x256.ShapeCasts S32x32x256
  reduces_S32x32x256_S32x32 : S32x32x256.Reduces [2] S32x32
  reduces_S32x32_S32 : S32x32.Reduces [1] S32
  shapeCasts_S32_S32x1 : S32.ShapeCasts S32x1
  h_S1x32x1 : 0 < S1x32x1.numel
  shapeCasts_S1x32x1_S32x1 : S1x32x1.ShapeCasts S32x1
  shapeCasts_S32x1_S1x32x1 : S32x1.ShapeCasts S1x32x1
  inb_S64x32x1_S64x32x1_0_0_0 : ∀ a, (![0, 0, 0] : Fin 3 → Nat) a + S64x32x1.size a ≤ S64x32x1.size a
  h_S64x32x1 : 0 < S64x32x1.numel
  shapeCasts_S64x32x1_S64x32 : S64x32x1.ShapeCasts S64x32
  transposes_S64x32_p1_0_S32x64 : S64x32.Transposes [1, 0] S32x64
  concatenates_S32x64_S32x64_S32x128_d1 : Shape.Concatenates [S32x64, S32x64] S32x128 1
  inb_S32x128_S32x128_0_0 : ∀ a, (![0, 0] : Fin 2 → Nat) a + S32x128.size a ≤ S32x128.size a
  h_S32x128 : 0 < S32x128.numel
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  slices_S64x128_S64x64_0_0 : S64x128.Slices ![0, 0] S64x64
  bcast_S_S1 : S_.BroadcastsInDim S1 (![] : Fin 0 → Fin S1.rank)
  reducesTo_S64x128_S64_d1 : S64x128.ReducesTo [1] S64
  h_S_ : 0 < S_.numel
  bcast_S_S64 : S_.BroadcastsInDim S64 (![] : Fin 0 → Fin S64.rank)
  bcast_S64x1_S64x128_0_1 : S64x1.BroadcastsInDim S64x128 (![0, 1] : Fin 2 → Fin S64x128.rank)
  concatenates_S64x1_S64x1_S64x2_d1 : Shape.Concatenates [S64x1, S64x1] S64x2 1
  reducesTo_S64_S_d0 : S64.ReducesTo [0] S_
  dot_S1024x128_S256x128_S1024x256_1_1_0_0_n_n_wf : DotDims.WF S1024x128 S256x128 S1024x256 [1] [1] [0] [0] [] []
  scatter_S64x128_S1_S64x64_01_n_1_0_wf : ScatterDims.WF S64x128 S1 S64x64 [0, 1] [] [1] 0
  gather_S64x128_S64x2_S64_n_01_n_n_01_1_11_wf : GatherDims.WF S64x128 S64x2 S64 [] [0, 1] [] [0, 1] [] 1 ![1, 1]
  hrank0 : 0 < grid0.rank
  k0_t1_ok : k0_t1_loop.OK
  k0_off1_inb : ∀ k0_t1 : Fin k0_t1_loop.trips, ∀ a, (k0_off1 k0_t1) a + S1x256x128.size a ≤ S64x256x128.size a
  k0_off2_inb : ∀ k0_t1 : Fin k0_t1_loop.trips, ∀ a, (k0_off2 k0_t1) a + S1x32x1.size a ≤ S64x32x1.size a
  k0_t2_ok : k0_t2_loop.OK
  k0_off3_inb : ∀ k0_t2 : Fin k0_t2_loop.trips, ∀ a, (k0_off3 k0_t2) a + S1x256x128.size a ≤ S64x256x128.size a
  k0_off4_inb : ∀ k0_t2 : Fin k0_t2_loop.trips, ∀ a, (k0_off4 k0_t2) a + S1x32x1.size a ≤ S64x32x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S32x32x128.size a ≤ S64x32x128.size a
  hwx0_0 : ∀ i : grid0.Coords, EltTy.bits .f32 = 32 ∨ (Rect.block (s := S64x32x128) S32x32x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x256x128.size a ≤ S64x256x128.size a
  hwx0_1 : ∀ i : grid0.Coords, EltTy.bits .f32 = 32 ∨ (Rect.block (s := S64x256x128) S64x256x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256x128.size a ≤ S64x256x128.size a
  hwx0_2 : ∀ i : grid0.Coords, EltTy.bits .f32 = 32 ∨ (Rect.block (s := S64x256x128) S64x256x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S32x128.size a ≤ S64x128.size a
  hwx0_3 : ∀ i : grid0.Coords, EltTy.bits .f32 = 32 ∨ (Rect.block (s := S64x128) S32x128.size (cc0_transform_3 i) (hinb0_3 i)).WholeWords (EltTy.packing .f32)

variable [Facts₀]

def dot_S1024x128_S256x128_S1024x256_1_1_0_0_n_n : DotDims S1024x128 S256x128 S1024x256 where
  lhsContracting := [1]
  rhsContracting := [1]
  lhsNonContracting := [0]
  rhsNonContracting := [0]
  lhsBatch := []
  rhsBatch := []
  wf := dot_S1024x128_S256x128_S1024x256_1_1_0_0_n_n_wf
def scatter_S64x128_S1_S64x64_01_n_1_0 : ScatterDims S64x128 S1 S64x64 where
  updateWindowDims := [0, 1]
  insertedWindowDims := []
  scatterDimsToOperandDims := [1]
  indexVectorDim := 0
  wf := scatter_S64x128_S1_S64x64_01_n_1_0_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

abbrev win0_0 : Pipeline.Window sig grid0 :=
  Pipeline.Window.ofSpec (Memref.whole main_arg0) S32x32x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64x32x128 : Shape := ⟨3, ![64, 32, 128]⟩
abbrev S64x256x128 : Shape := ⟨3, ![64, 256, 128]⟩
abbrev S64 : Shape := ⟨1, ![64]⟩
abbrev S_ : Shape := ⟨0, ![]⟩
abbrev S64x32 : Shape := ⟨2, ![64, 32]⟩
abbrev S64x32x1 : Shape := ⟨3, ![64, 32, 1]⟩
abbrev S128x256x128 : Shape := ⟨3, ![128, 256, 128]⟩
abbrev S128x256 : Shape := ⟨2, ![128, 256]⟩
abbrev S128x256x1 : Shape := ⟨3, ![128, 256, 1]⟩
abbrev S128x256x64x32 : Shape := ⟨4, ![128, 256, 64, 32]⟩
abbrev S64x128x32x256 : Shape := ⟨4, ![64, 128, 32, 256]⟩
abbrev S64x128x32 : Shape := ⟨3, ![64, 128, 32]⟩
abbrev S64x128 : Shape := ⟨2, ![64, 128]⟩
abbrev S64x1 : Shape := ⟨2, ![64, 1]⟩
abbrev S1x64 : Shape := ⟨2, ![1, 64]⟩
abbrev S64x64 : Shape := ⟨2, ![64, 64]⟩
abbrev S1 : Shape := ⟨1, ![1]⟩
abbrev S64x2 : Shape := ⟨2, ![64, 2]⟩

abbrev nBuf : Space → Nat
  | .hbm => 98
  | .vmem => 0
  | .smem => 0
  | _ => 0

abbrev bufTy : (tb : Table) → Fin (tcTables nBuf tb) → BufTy
  | .hbm, ⟨0, _⟩ => ⟨S64x32x128, .f32⟩
  | .hbm, ⟨1, _⟩ => ⟨S64x256x128, .f32⟩
  | .hbm, ⟨2, _⟩ => ⟨S64x256x128, .f32⟩
  | .hbm, ⟨3, _⟩ => ⟨S64, .i32⟩
  | .hbm, ⟨4, _⟩ => ⟨S64x32x128, .f32⟩
  | .hbm, ⟨5, _⟩ => ⟨S_, .f32⟩
  | .hbm, ⟨6, _⟩ => ⟨S64x32, .f32⟩
  | .hbm, ⟨7, _⟩ => ⟨S64x32x1, .f32⟩
  | .hbm, ⟨8, _⟩ => ⟨S64x32x1, .f32⟩
  | .hbm, ⟨9, _⟩ => ⟨S_, .f32⟩
  | .hbm, ⟨10, _⟩ => ⟨S64x32x1, .f32⟩
  | .hbm, ⟨11, _⟩ => ⟨S64x32x1, .f32⟩
  | .hbm, ⟨12, _⟩ => ⟨S64x32x128, .f32⟩
  | .hbm, ⟨13, _⟩ => ⟨S64x32x128, .f32⟩
  | .hbm, ⟨14, _⟩ => ⟨S128x256x128, .f32⟩
  | .hbm, ⟨15, _⟩ => ⟨S128x256x128, .f32⟩
  | .hbm, ⟨16, _⟩ => ⟨S_, .f32⟩
  | .hbm, ⟨17, _⟩ => ⟨S128x256, .f32⟩
  | .hbm, ⟨18, _⟩ => ⟨S128x256x1, .f32⟩
  | .hbm, ⟨19, _⟩ => ⟨S128x256x1, .f32⟩
  | .hbm, ⟨20, _⟩ => ⟨S_, .f32⟩
  | .hbm, ⟨21, _⟩ => ⟨S128x256x1, .f32⟩
  | .hbm, ⟨22, _⟩ => ⟨S128x256x1, .f32⟩
  | .hbm, ⟨23, _⟩ => ⟨S128x256x128, .f32⟩
  | .hbm, ⟨24, _⟩ => ⟨S128x256x128, .f32⟩
  | .hbm, ⟨25, _⟩ => ⟨S128x256x64x32, .f32⟩
  | .hbm, ⟨26, _⟩ => ⟨S64x128x32x256, .f32⟩
  | .hbm, ⟨27, _⟩ => ⟨S_, .f32⟩
  | .hbm, ⟨28, _⟩ => ⟨S64x128x32, .f32⟩
  | .hbm, ⟨29, _⟩ => ⟨S_, .f32⟩
  | .hbm, ⟨30, _⟩ => ⟨S64x128, .f32⟩
  | .hbm, ⟨31, _⟩ => ⟨S_, .f32⟩
  | .hbm, ⟨32, _⟩ => ⟨S64x128, .f32⟩
  | .hbm, ⟨33, _⟩ => ⟨S64x128, .f32⟩
  | .hbm, ⟨34, _⟩ => ⟨S_, .f32⟩
  | .hbm, ⟨35, _⟩ => ⟨S64x128, .f32⟩
  | .hbm, ⟨36, _⟩ => ⟨S64x128, .f32⟩
  | .hbm, ⟨37, _⟩ => ⟨S64x1, .i32⟩
  | .hbm, ⟨38, _⟩ => ⟨S1x64, .i32⟩
  | .hbm, ⟨39, _⟩ => ⟨S64x64, .i32⟩
  | .hbm, ⟨40, _⟩ => ⟨S64x64, .i32⟩
  | .hbm, ⟨41, _⟩ => ⟨S64x64, .i1⟩
  | .hbm, ⟨42, _⟩ => ⟨S64x64, .i32⟩
  | .hbm, ⟨43, _⟩ => ⟨S64x64, .i32⟩
  | .hbm, ⟨44, _⟩ => ⟨S_, .i32⟩
  | .hbm, ⟨45, _⟩ => ⟨S64x64, .i32⟩
  | .hbm, ⟨46, _⟩ => ⟨S64x64, .i32⟩
  | .hbm, ⟨47, _⟩ => ⟨S64x64, .i1⟩
  | .hbm, ⟨48, _⟩ => ⟨S64x64, .i1⟩
  | .hbm, ⟨49, _⟩ => ⟨S64x64, .i1⟩
  | .hbm, ⟨50, _⟩ => ⟨S64x64, .f32⟩
  | .hbm, ⟨51, _⟩ => ⟨S_, .f32⟩
  | .hbm, ⟨52, _⟩ => ⟨S_, .f32⟩
  | .hbm, ⟨53, _⟩ => ⟨S64x64, .f32⟩
  | .hbm, ⟨54, _⟩ => ⟨S64x64, .f32⟩
  | .hbm, ⟨55, _⟩ => ⟨S_, .i32⟩
  | .hbm, ⟨56, _⟩ => ⟨S1, .i32⟩
  | .hbm, ⟨57, _⟩ => ⟨S64x128, .f32⟩
  | .hbm, ⟨58, _⟩ => ⟨S_, .f32⟩
  | .hbm, ⟨59, _⟩ => ⟨S64, .f32⟩
  | .hbm, ⟨60, _⟩ => ⟨S_, .f32⟩
  | .hbm, ⟨61, _⟩ => ⟨S64, .f32⟩
  | .hbm, ⟨62, _⟩ => ⟨S64, .f32⟩
  | .hbm, ⟨63, _⟩ => ⟨S64x1, .f32⟩
  | .hbm, ⟨64, _⟩ => ⟨S64x128, .f32⟩
  | .hbm, ⟨65, _⟩ => ⟨S64x128, .f32⟩
  | .hbm, ⟨66, _⟩ => ⟨S64x128, .f32⟩
  | .hbm, ⟨67, _⟩ => ⟨S_, .f32⟩
  | .hbm, ⟨68, _⟩ => ⟨S64, .f32⟩
  | .hbm, ⟨69, _⟩ => ⟨S64x1, .f32⟩
  | .hbm, ⟨70, _⟩ => ⟨S64x1, .f32⟩
  | .hbm, ⟨71, _⟩ => ⟨S64x128, .f32⟩
  | .hbm, ⟨72, _⟩ => ⟨S64x128, .f32⟩
  | .hbm, ⟨73, _⟩ => ⟨S64, .i32⟩
  | .hbm, ⟨74, _⟩ => ⟨S64, .i32⟩
  | .hbm, ⟨75, _⟩ => ⟨S_, .i32⟩
  | .hbm, ⟨76, _⟩ => ⟨S64, .i32⟩
  | .hbm, ⟨77, _⟩ => ⟨S64, .i1⟩
  | .hbm, ⟨78, _⟩ => ⟨S_, .i32⟩
  | .hbm, ⟨79, _⟩ => ⟨S64, .i32⟩
  | .hbm, ⟨80, _⟩ => ⟨S64, .i32⟩
  | .hbm, ⟨81, _⟩ => ⟨S64, .i32⟩
  | .hbm, ⟨82, _⟩ => ⟨S_, .i32⟩
  | .hbm, ⟨83, _⟩ => ⟨S64, .i32⟩
  | .hbm, ⟨84, _⟩ => ⟨S64, .i1⟩
  | .hbm, ⟨85, _⟩ => ⟨S_, .i32⟩
  | .hbm, ⟨86, _⟩ => ⟨S64, .i32⟩
  | .hbm, ⟨87, _⟩ => ⟨S64, .i32⟩
  | .hbm, ⟨88, _⟩ => ⟨S64, .i32⟩
  | .hbm, ⟨89, _⟩ => ⟨S64x1, .i32⟩
  | .hbm, ⟨90, _⟩ => ⟨S64x1, .i32⟩
  | .hbm, ⟨91, _⟩ => ⟨S64x2, .i32⟩
  | .hbm, ⟨92, _⟩ => ⟨S64, .f32⟩
  | .hbm, ⟨93, _⟩ => ⟨S_, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | _, _ => ⟨S64x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_cst_6 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_c : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_7 : Ref sig .tc := ⟨.hbm, 51, rfl⟩
abbrev main_call0_v0 : Ref sig .tc := ⟨.hbm, 52, rfl⟩
abbrev main_call0_v1 : Ref sig .tc := ⟨.hbm, 53, rfl⟩
abbrev main_v38 : Ref sig .tc := ⟨.hbm, 54, rfl⟩
abbrev main_c_8 : Ref sig .tc := ⟨.hbm, 55, rfl⟩
abbrev main_v39 : Ref sig .tc := ⟨.hbm, 56, rfl⟩
abbrev main_v40 : Ref sig .tc := ⟨.hbm, 57, rfl⟩
abbrev main_call1_cst : Ref sig .tc := ⟨.hbm, 58, rfl⟩
abbrev main_call1_v0 : Ref sig .tc := ⟨.hbm, 59, rfl⟩
abbrev main_call1_cst_0 : Ref sig .tc := ⟨.hbm, 60, rfl⟩
abbrev main_call1_v1 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_v6 : Ref sig .tc := ⟨.hbm, 66, rfl⟩
abbrev main_call1_cst_1 : Ref sig .tc := ⟨.hbm, 67, rfl⟩
abbrev main_call1_v7 : Ref sig .tc := ⟨.hbm, 68, rfl⟩
abbrev main_call1_v8 : Ref sig .tc := ⟨.hbm, 69, rfl⟩
abbrev main_call1_v9 : Ref sig .tc := ⟨.hbm, 70, rfl⟩
abbrev main_call1_v10 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_c_9 : Ref sig .tc := ⟨.hbm, 75, rfl⟩
abbrev main_v44 : Ref sig .tc := ⟨.hbm, 76, rfl⟩
abbrev main_v45 : Ref sig .tc := ⟨.hbm, 77, rfl⟩
abbrev main_c_10 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_c_11 : Ref sig .tc := ⟨.hbm, 82, rfl⟩
abbrev main_v49 : Ref sig .tc := ⟨.hbm, 83, rfl⟩
abbrev main_v50 : Ref sig .tc := ⟨.hbm, 84, rfl⟩
abbrev main_c_12 : Ref sig .tc := ⟨.hbm, 85, rfl⟩
abbrev main_v51 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_13 : Ref sig .tc := ⟨.hbm, 93, rfl⟩
abbrev main_v58 : Ref sig .tc := ⟨.hbm, 94, rfl⟩
abbrev main_cst_14 : Ref sig .tc := ⟨.hbm, 95, rfl⟩
abbrev main_v59 : Ref sig .tc := ⟨.hbm, 96, rfl⟩
abbrev main_v60 : Ref sig .tc := ⟨.hbm, 97, rfl⟩

abbrev nD : Nat := 1
abbrev τ : Topo := Topo.v7x

variable {F : FTy → Type} [FloatOps F]

class Facts₀ : Prop where
  reducesTo_S64x32x128_S64x32_d2 : S64x32x128.ReducesTo [2] S64x32
  h_S_ : 0 < S_.numel
  bcast_S64x32_S64x32x1_0_1 : S64x32.BroadcastsInDim S64x32x1 (![0, 1] : Fin 2 → Fin S64x32x1.rank)
  bcast_S_S64x32x1 : S_.BroadcastsInDim S64x32x1 (![] : Fin 0 → Fin S64x32x1.rank)
  bcast_S64x32x1_S64x32x128_0_1_2 : S64x32x1.BroadcastsInDim S64x32x128 (![0, 1, 2] : Fin 3 → Fin S64x32x128.rank)
  concatenates_S64x256x128_S64x256x128_S128x256x128_d0 : Shape.Concatenates [S64x256x128, S64x256x128] S128x256x128 0
  reducesTo_S128x256x128_S128x256_d2 : S128x256x128.ReducesTo [2] S128x256
  bcast_S128x256_S128x256x1_0_1 : S128x256.BroadcastsInDim S128x256x1 (![0, 1] : Fin 2 → Fin S128x256x1.rank)
  bcast_S_S128x256x1 : S_.BroadcastsInDim S128x256x1 (![] : Fin 0 → Fin S128x256x1.rank)
  bcast_S128x256x1_S128x256x128_0_1_2 : S128x256x1.BroadcastsInDim S128x256x128 (![0, 1, 2] : Fin 3 → Fin S128x256x128.rank)
  transposes_S128x256x64x32_S64x128x32x256_2_0_3_1 : S128x256x64x32.Transposes [2, 0, 3, 1] S64x128x32x256
  reducesTo_S64x128x32x256_S64x128x32_d3 : S64x128x32x256.ReducesTo [3] S64x128x32
  reducesTo_S64x128x32_S64x128_d2 : S64x128x32.ReducesTo [2] S64x128
  bcast_S_S64x128 : S_.BroadcastsInDim S64x128 (![] : Fin 0 → Fin S64x128.rank)
  bcast_S64_S64x1_0 : S64.BroadcastsInDim S64x1 (![0] : Fin 1 → Fin S64x1.rank)
  bcast_S64_S1x64_1 : S64.BroadcastsInDim S1x64 (![1] : Fin 1 → Fin S1x64.rank)
  bcast_S64x1_S64x64_0_1 : S64x1.BroadcastsInDim S64x64 (![0, 1] : Fin 2 → Fin S64x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  slices_S64x128_S64x64_0_0 : S64x128.Slices ![0, 0] S64x64
  bcast_S_S1 : S_.BroadcastsInDim S1 (![] : Fin 0 → Fin S1.rank)
  reducesTo_S64x128_S64_d1 : S64x128.ReducesTo [1] S64
  bcast_S_S64 : S_.BroadcastsInDim S64 (![] : Fin 0 → Fin S64.rank)
  bcast_S64x1_S64x128_0_1 : S64x1.BroadcastsInDim S64x128 (![0, 1] : Fin 2 → Fin S64x128.rank)
  concatenates_S64x1_S64x1_S64x2_d1 : Shape.Concatenates [S64x1, S64x1] S64x2 1
  reducesTo_S64_S_d0 : S64.ReducesTo [0] S_
  dot_S128x256x128_S64x32x128_S128x256x64x32_2_2_01_01_n_n_wf : DotDims.WF S128x256x128 S64x32x128 S128x256x64x32 [2] [2] [0, 1] [0, 1] [] []
  scatter_S64x128_S1_S64x64_01_n_1_0_wf : ScatterDims.WF S64x128 S1 S64x64 [0, 1] [] [1] 0
  gather_S64x128_S64x2_S64_n_01_n_n_01_1_11_wf : GatherDims.WF S64x128 S64x2 S64 [] [0, 1] [] [0, 1] [] 1 ![1, 1]

variable [Facts₀]

def dot_S128x256x128_S64x32x128_S128x256x64x32_2_2_01_01_n_n : DotDims S128x256x128 S64x32x128 S128x256x64x32 where
  lhsContracting := [2]
  rhsContracting := [2]
  lhsNonContracting := [0, 1]
  rhsNonContracting := [0, 1]
  lhsBatch := []
  rhsBatch := []
  wf := dot_S128x256x128_S64x32x128_S128x256x64x32_2_2_01_01_n_n_wf
def scatter_S64x128_S1_S64x64_01_n_1_0 : ScatterDims S64x128 S1 S64x64 where
  updateWindowDims := [0, 1]
  insertedWindowDims := []
  scatterDimsToOperandDims := [1]
  indexVectorDim := 0
  wf := scatter_S64x128_S1_S64x64_01_n_1_0_wf
def gather_S64x128_S64x2_S64_n_01_n_n_01_1_11 : GatherDims S64x128 S64x2 S64 where
  offsetDims := []
  collapsedSliceDims := [0, 1]
  operandBatchingDims := []
  startIndicesBatchingDims := []
  startIndexMap := [0, 1]
  indexVectorDim := 1
  sliceSizes := ![1, 1]
  wf := gather_S64x128_S64x2_S64_n_01_n_n_01_1_11_wf

class Facts : Prop extends Facts₀ where

variable [Facts]
-- ==== Proof.TripsKernel.lean ====
/-
  The two counted loops of the kernel body, read as lists of stores.

  Loop 1 runs over the 64 positive documents, loop 2 over the 64 negative ones. Trip k reads document k's
  256 scaled token rows out of the first (second) scratch, multiplies the query tile against them, takes the
  row maxima and their mean, and stores the 32 means as row k of the third (fourth) scratch. So one trip leaves
  exactly ONE piece: the unit-stride box [k, k+1) x [0, 32) x [0, 1) holding the trip's payload of the box
  [k, k+1) x [0, 256) x [0, 128) of the document scratch (`piece1`, `piece2`).

  The accumulated list after n trips holds the pieces of the trips below n (`mem_acc1`, `acc1_mem`), and after all
  64 trips the boxes [k, k+1) x 32 x 1, k < 64, cover the whole 64 x 32 x 1 scratch (`cover1`, `cover2`): a load
  of the scratch after the loop reads the trips' payloads whatever the scratch held before.
-/
import proofs.«155816_j17282948399256_1_alg».proof.Proof.Gen.Kernel.Loops

set_option maxRecDepth 16384

noncomputable section

namespace Cert.Kernel.Trips

open Cert.Kernel Cert.Kernel.Gen
open Idealize.ShloMosaic Idealize.ShloMosaic.TcCoe Idealize.ShloMosaic.Tactic
open Idealize.SL Idealize.SL.Sem

variable {F : FTy → Type} [FloatOps F]

variable (𝒱 : Variants) (c : Dev nD) (bd : Option 𝒱.V) (i : grid0.Coords)
  (arg1 : Memref sig .tc .vmem S32x32x128 .f32) (harg1 : arg1.IsWhole)
  (arg2 : Memref sig .tc .vmem S64x256x128 .f32) (harg2 : arg2.IsWhole)
  (arg3 : Memref sig .tc .vmem S64x256x128 .f32) (harg3 : arg3.IsWhole)
  (arg4 : Memref sig .tc .vmem S32x128 .f32) (harg4 : arg4.IsWhole)
  (arg5 : Memref sig .tc .vmem S64x256x128 .bf16) (harg5 : arg5.IsWhole)
  (arg6 : Memref sig .tc .vmem S64x256x128 .bf16) (harg6 : arg6.IsWhole)
  (arg7 : Memref sig .tc .vmem S64x32x1 .f32) (harg7 : arg7.IsWhole)
  (arg8 : Memref sig .tc .vmem S64x32x1 .f32) (harg8 : arg8.IsWhole)
  (v208 : Vec F S32x32x128 .f32) (v210 : FVec F S32x32 .f32)

/-- Both loops make 64 trips. -/
theorem trips1 : k0_t1_loop.trips = 64 := by decide +kernel
theorem trips2 : k0_t2_loop.trips = 64 := by decide +kernel

/-! ## Loop 1 -/

/-- The one piece trip k of loop 1 stores. -/
def piece1 (X : BufTy.Contents (Elt F) arg5.view.ty) (k : Fin k0_t1_loop.trips) : View.Piece (Elt F) S64x32x1 .f32 :=
  ⟨Rect.unit (s := S64x32x1) (k0_off2 k) S1x32x1.size (k0_off2_inb k),
    k0_pay2 v208 v210 (arg5.view.readAt (Elt F) (Rect.unit (s := S64x256x128) (k0_off1 k) S1x256x128.size (k0_off1_inb k)).toLoadRect X)⟩

/-- A trip of loop 1 stores exactly that piece: the trip's run, opened here once. -/
theorem tripL1_eq (X : BufTy.Contents (Elt F) arg5.view.ty) (k : Fin k0_t1_loop.trips) :
    tripL_k0_t1 (F := F) 𝒱 c bd i arg1 harg1 arg2 harg2 arg3 harg3 arg4 harg4 arg5 harg5 arg6 harg6 arg7 harg7 arg8 harg8 v208 v210 X k
      = [piece1 arg5 v208 v210 X k] := by
  unfold tripL_k0_t1 trip_k0_t1 piece1
  rfl

/-- After n ≤ 64 trips the list holds the piece of every trip below n, -/
theorem mem_acc1 (X : BufTy.Contents (Elt F) arg5.view.ty) :
    ∀ (n : ℕ), n ≤ k0_t1_loop.trips → ∀ k : Fin k0_t1_loop.trips, k.val < n →
      piece1 arg5 v208 v210 X k ∈ pb_k0_t1 (F := F) 𝒱 c bd i arg1 harg1 arg2 harg2 arg3 harg3 arg4 harg4 arg5 harg5 arg6 harg6 arg7 harg7 arg8 harg8 v208 v210 X n
  | 0, _, k, hk => absurd hk (Nat.not_lt_zero _)
  | n + 1, hn, k, hk => by
    have e := pb_k0_t1_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t1_loop.trips).val + 1 = n + 1 from rfl, tripL1_eq] at e
    rw [e]
    by_cases h : k.val = n
    · have : k = ⟨n, hn⟩ := Fin.ext h
      subst this
      exact List.mem_append_left _ (List.mem_singleton_self _)
    · exact List.mem_append_right _ (mem_acc1 X n (Nat.le_of_succ_le hn) k (by omega))

/-- and nothing else. -/
theorem acc1_mem (X : BufTy.Contents (Elt F) arg5.view.ty) :
    ∀ (n : ℕ), n ≤ k0_t1_loop.trips →
      ∀ p ∈ pb_k0_t1 (F := F) 𝒱 c bd i arg1 harg1 arg2 harg2 arg3 harg3 arg4 harg4 arg5 harg5 arg6 harg6 arg7 harg7 arg8 harg8 v208 v210 X n,
        ∃ k : Fin k0_t1_loop.trips, p = piece1 arg5 v208 v210 X k
  | 0, _, p, hp => by rw [pb_k0_t1.eq_1] at hp; exact absurd hp (List.not_mem_nil)
  | n + 1, hn, p, hp => by
    have e := pb_k0_t1_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t1_loop.trips).val + 1 = n + 1 from rfl, tripL1_eq] at e
    rw [e] at hp
    rcases List.mem_append.mp hp with h | h
    · exact ⟨⟨n, hn⟩, List.mem_singleton.mp h⟩
    · exact acc1_mem X n (Nat.le_of_succ_le hn) p h

/-- Row y₀ of the result scratch lies in the box trip y₀ stores. -/
theorem mem_piece1 (X : BufTy.Contents (Elt F) arg5.view.ty) (y : S64x32x1.Idx) (h : (y 0).val < k0_t1_loop.trips) :
    y ∈ (piece1 arg5 v208 v210 X ⟨(y 0).val, h⟩).1.set := by
  unfold piece1
  rw [Rect.mem_set_unit, k0_off2_eq]
  intro a
  have ha := (y a).isLt
  match a with
  | ⟨0, _⟩ => exact ⟨Nat.le_refl _, Nat.lt_succ_self _⟩
  | ⟨1, _⟩ => exact ⟨Nat.zero_le _, by simpa using ha⟩
  | ⟨2, _⟩ => exact ⟨Nat.zero_le _, by simpa using ha⟩

/-- The 64 trips' boxes cover the whole result scratch. -/
theorem cover1 (X : BufTy.Contents (Elt F) arg5.view.ty) (y : S64x32x1.Idx) :
    ∃ p ∈ pb_k0_t1 (F := F) 𝒱 c bd i arg1 harg1 arg2 harg2 arg3 harg3 arg4 harg4 arg5 harg5 arg6 harg6 arg7 harg7 arg8 harg8 v208 v210 X k0_t1_loop.trips,
      y ∈ p.1.set :=
  have h : (y 0).val < k0_t1_loop.trips := by rw [trips1]; exact (y 0).isLt
  ⟨_, mem_acc1 𝒱 c bd i arg1 harg1 arg2 harg2 arg3 harg3 arg4 harg4 arg5 harg5 arg6 harg6 arg7 harg7 arg8 harg8 v208 v210 X _ (Nat.le_refl _) ⟨(y 0).val, h⟩ h,
    mem_piece1 arg5 v208 v210 X y h⟩

/-! ## Loop 2 -/

/-- The one piece trip k of loop 2 stores. -/
def piece2 (X : BufTy.Contents (Elt F) arg6.view.ty) (k : Fin k0_t2_loop.trips) : View.Piece (Elt F) S64x32x1 .f32 :=
  ⟨Rect.unit (s := S64x32x1) (k0_off4 k) S1x32x1.size (k0_off4_inb k),
    k0_pay3 v208 v210 (arg6.view.readAt (Elt F) (Rect.unit (s := S64x256x128) (k0_off3 k) S1x256x128.size (k0_off3_inb k)).toLoadRect X)⟩

/-- A trip of loop 2 stores exactly that piece: the trip's run, opened here once. -/
theorem tripL2_eq (X : BufTy.Contents (Elt F) arg6.view.ty) (k : Fin k0_t2_loop.trips) :
    tripL_k0_t2 (F := F) 𝒱 c bd i arg1 harg1 arg2 harg2 arg3 harg3 arg4 harg4 arg5 harg5 arg6 harg6 arg7 harg7 arg8 harg8 v208 v210 X k
      = [piece2 arg6 v208 v210 X k] := by
  unfold tripL_k0_t2 trip_k0_t2 piece2
  rfl

theorem mem_acc2 (X : BufTy.Contents (Elt F) arg6.view.ty) :
    ∀ (n : ℕ), n ≤ k0_t2_loop.trips → ∀ k : Fin k0_t2_loop.trips, k.val < n →
      piece2 arg6 v208 v210 X k ∈ pb_k0_t2 (F := F) 𝒱 c bd i arg1 harg1 arg2 harg2 arg3 harg3 arg4 harg4 arg5 harg5 arg6 harg6 arg7 harg7 arg8 harg8 v208 v210 X n
  | 0, _, k, hk => absurd hk (Nat.not_lt_zero _)
  | n + 1, hn, k, hk => by
    have e := pb_k0_t2_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t2_loop.trips).val + 1 = n + 1 from rfl, tripL2_eq] at e
    rw [e]
    by_cases h : k.val = n
    · have : k = ⟨n, hn⟩ := Fin.ext h
      subst this
      exact List.mem_append_left _ (List.mem_singleton_self _)
    · exact List.mem_append_right _ (mem_acc2 X n (Nat.le_of_succ_le hn) k (by omega))

theorem acc2_mem (X : BufTy.Contents (Elt F) arg6.view.ty) :
    ∀ (n : ℕ), n ≤ k0_t2_loop.trips →
      ∀ p ∈ pb_k0_t2 (F := F) 𝒱 c bd i arg1 harg1 arg2 harg2 arg3 harg3 arg4 harg4 arg5 harg5 arg6 harg6 arg7 harg7 arg8 harg8 v208 v210 X n,
        ∃ k : Fin k0_t2_loop.trips, p = piece2 arg6 v208 v210 X k
  | 0, _, p, hp => by rw [pb_k0_t2.eq_1] at hp; exact absurd hp (List.not_mem_nil)
  | n + 1, hn, p, hp => by
    have e := pb_k0_t2_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t2_loop.trips).val + 1 = n + 1 from rfl, tripL2_eq] at e
    rw [e] at hp
    rcases List.mem_append.mp hp with h | h
    · exact ⟨⟨n, hn⟩, List.mem_singleton.mp h⟩
    · exact acc2_mem X n (Nat.le_of_succ_le hn) p h

theorem mem_piece2 (X : BufTy.Contents (Elt F) arg6.view.ty) (y : S64x32x1.Idx) (h : (y 0).val < k0_t2_loop.trips) :
    y ∈ (piece2 arg6 v208 v210 X ⟨(y 0).val, h⟩).1.set := by
  unfold piece2
  rw [Rect.mem_set_unit, k0_off4_eq]
  intro a
  have ha := (y a).isLt
  match a with
  | ⟨0, _⟩ => exact ⟨Nat.le_refl _, Nat.lt_succ_self _⟩
  | ⟨1, _⟩ => exact ⟨Nat.zero_le _, by simpa using ha⟩
  | ⟨2, _⟩ => exact ⟨Nat.zero_le _, by simpa using ha⟩

theorem cover2 (X : BufTy.Contents (Elt F) arg6.view.ty) (y : S64x32x1.Idx) :
    ∃ p ∈ pb_k0_t2 (F := F) 𝒱 c bd i arg1 harg1 arg2 harg2 arg3 harg3 arg4 harg4 arg5 harg5 arg6 harg6 arg7 harg7 arg8 harg8 v208 v210 X k0_t2_loop.trips,
      y ∈ p.1.set :=
  have h : (y 0).val < k0_t2_loop.trips := by rw [trips2]; exact (y 0).isLt
  ⟨_, mem_acc2 𝒱 c bd i arg1 harg1 arg2 harg2 arg3 harg3 arg4 harg4 arg5 harg5 arg6 harg6 arg7 harg7 arg8 harg8 v208 v210 X _ (Nat.le_refl _) ⟨(y 0).val, h⟩ h,
    mem_piece2 arg6 v208 v210 X y h⟩

end Cert.Kernel.Trips

end
-- ==== Proof.TripsIdeal.lean ====
/-
  The two counted loops of the kernel body, read as lists of stores.

  Loop 1 runs over the 64 positive documents, loop 2 over the 64 negative ones. Trip k reads document k's
  256 scaled token rows out of the first (second) scratch, multiplies the query tile against them, takes the
  row maxima and their mean, and stores the 32 means as row k of the third (fourth) scratch. So one trip leaves
  exactly ONE piece: the unit-stride box [k, k+1) x [0, 32) x [0, 1) holding the trip's payload of the box
  [k, k+1) x [0, 256) x [0, 128) of the document scratch (`piece1`, `piece2`).

  The accumulated list after n trips holds the pieces of the trips below n (`mem_acc1`, `acc1_mem`), and after all
  64 trips the boxes [k, k+1) x 32 x 1, k < 64, cover the whole 64 x 32 x 1 scratch (`cover1`, `cover2`): a load
  of the scratch after the loop reads the trips' payloads whatever the scratch held before.
-/
import proofs.«155816_j17282948399256_1_alg».proof.Proof.Gen.KernelIdeal.Loops

set_option maxRecDepth 16384

noncomputable section

namespace Cert.KernelIdeal.Trips

open Cert.KernelIdeal Cert.KernelIdeal.Gen
open Idealize.ShloMosaic Idealize.ShloMosaic.TcCoe Idealize.ShloMosaic.Tactic
open Idealize.SL Idealize.SL.Sem

variable {F : FTy → Type} [FloatOps F] [Named F]

variable (𝒱 : Variants) (c : Dev nD) (bd : Option 𝒱.V) (i : grid0.Coords)
  (arg1 : Memref sig .tc .vmem S32x32x128 .f32) (harg1 : arg1.IsWhole)
  (arg2 : Memref sig .tc .vmem S64x256x128 .f32) (harg2 : arg2.IsWhole)
  (arg3 : Memref sig .tc .vmem S64x256x128 .f32) (harg3 : arg3.IsWhole)
  (arg4 : Memref sig .tc .vmem S32x128 .f32) (harg4 : arg4.IsWhole)
  (arg5 : Memref sig .tc .vmem S64x256x128 .bf16) (harg5 : arg5.IsWhole)
  (arg6 : Memref sig .tc .vmem S64x256x128 .bf16) (harg6 : arg6.IsWhole)
  (arg7 : Memref sig .tc .vmem S64x32x1 .f32) (harg7 : arg7.IsWhole)
  (arg8 : Memref sig .tc .vmem S64x32x1 .f32) (harg8 : arg8.IsWhole)
  (v208 : Vec F S32x32x128 .f32) (v210 : FVec F S32x32 .f32)

/-- Both loops make 64 trips. -/
theorem trips1 : k0_t1_loop.trips = 64 := by decide +kernel
theorem trips2 : k0_t2_loop.trips = 64 := by decide +kernel

/-! ## Loop 1 -/

/-- The one piece trip k of loop 1 stores. -/
def piece1 (X : BufTy.Contents (Elt F) arg5.view.ty) (k : Fin k0_t1_loop.trips) : View.Piece (Elt F) S64x32x1 .f32 :=
  ⟨Rect.unit (s := S64x32x1) (k0_off2 k) S1x32x1.size (k0_off2_inb k),
    k0_pay2 v208 v210 (arg5.view.readAt (Elt F) (Rect.unit (s := S64x256x128) (k0_off1 k) S1x256x128.size (k0_off1_inb k)).toLoadRect X)⟩

/-- A trip of loop 1 stores exactly that piece: the trip's run, opened here once. -/
theorem tripL1_eq (X : BufTy.Contents (Elt F) arg5.view.ty) (k : Fin k0_t1_loop.trips) :
    tripL_k0_t1 (F := F) 𝒱 c bd i arg1 harg1 arg2 harg2 arg3 harg3 arg4 harg4 arg5 harg5 arg6 harg6 arg7 harg7 arg8 harg8 v208 v210 X k
      = [piece1 arg5 v208 v210 X k] := by
  unfold tripL_k0_t1 trip_k0_t1 piece1
  rfl

/-- After n ≤ 64 trips the list holds the piece of every trip below n, -/
theorem mem_acc1 (X : BufTy.Contents (Elt F) arg5.view.ty) :
    ∀ (n : ℕ), n ≤ k0_t1_loop.trips → ∀ k : Fin k0_t1_loop.trips, k.val < n →
      piece1 arg5 v208 v210 X k ∈ pb_k0_t1 (F := F) 𝒱 c bd i arg1 harg1 arg2 harg2 arg3 harg3 arg4 harg4 arg5 harg5 arg6 harg6 arg7 harg7 arg8 harg8 v208 v210 X n
  | 0, _, k, hk => absurd hk (Nat.not_lt_zero _)
  | n + 1, hn, k, hk => by
    have e := pb_k0_t1_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t1_loop.trips).val + 1 = n + 1 from rfl, tripL1_eq] at e
    rw [e]
    by_cases h : k.val = n
    · have : k = ⟨n, hn⟩ := Fin.ext h
      subst this
      exact List.mem_append_left _ (List.mem_singleton_self _)
    · exact List.mem_append_right _ (mem_acc1 X n (Nat.le_of_succ_le hn) k (by omega))

/-- and nothing else. -/
theorem acc1_mem (X : BufTy.Contents (Elt F) arg5.view.ty) :
    ∀ (n : ℕ), n ≤ k0_t1_loop.trips →
      ∀ p ∈ pb_k0_t1 (F := F) 𝒱 c bd i arg1 harg1 arg2 harg2 arg3 harg3 arg4 harg4 arg5 harg5 arg6 harg6 arg7 harg7 arg8 harg8 v208 v210 X n,
        ∃ k : Fin k0_t1_loop.trips, p = piece1 arg5 v208 v210 X k
  | 0, _, p, hp => by rw [pb_k0_t1.eq_1] at hp; exact absurd hp (List.not_mem_nil)
  | n + 1, hn, p, hp => by
    have e := pb_k0_t1_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t1_loop.trips).val + 1 = n + 1 from rfl, tripL1_eq] at e
    rw [e] at hp
    rcases List.mem_append.mp hp with h | h
    · exact ⟨⟨n, hn⟩, List.mem_singleton.mp h⟩
    · exact acc1_mem X n (Nat.le_of_succ_le hn) p h

/-- Row y₀ of the result scratch lies in the box trip y₀ stores. -/
theorem mem_piece1 (X : BufTy.Contents (Elt F) arg5.view.ty) (y : S64x32x1.Idx) (h : (y 0).val < k0_t1_loop.trips) :
    y ∈ (piece1 arg5 v208 v210 X ⟨(y 0).val, h⟩).1.set := by
  unfold piece1
  rw [Rect.mem_set_unit, k0_off2_eq]
  intro a
  have ha := (y a).isLt
  match a with
  | ⟨0, _⟩ => exact ⟨Nat.le_refl _, Nat.lt_succ_self _⟩
  | ⟨1, _⟩ => exact ⟨Nat.zero_le _, by simpa using ha⟩
  | ⟨2, _⟩ => exact ⟨Nat.zero_le _, by simpa using ha⟩

/-- The 64 trips' boxes cover the whole result scratch. -/
theorem cover1 (X : BufTy.Contents (Elt F) arg5.view.ty) (y : S64x32x1.Idx) :
    ∃ p ∈ pb_k0_t1 (F := F) 𝒱 c bd i arg1 harg1 arg2 harg2 arg3 harg3 arg4 harg4 arg5 harg5 arg6 harg6 arg7 harg7 arg8 harg8 v208 v210 X k0_t1_loop.trips,
      y ∈ p.1.set :=
  have h : (y 0).val < k0_t1_loop.trips := by rw [trips1]; exact (y 0).isLt
  ⟨_, mem_acc1 𝒱 c bd i arg1 harg1 arg2 harg2 arg3 harg3 arg4 harg4 arg5 harg5 arg6 harg6 arg7 harg7 arg8 harg8 v208 v210 X _ (Nat.le_refl _) ⟨(y 0).val, h⟩ h,
    mem_piece1 arg5 v208 v210 X y h⟩

/-! ## Loop 2 -/

/-- The one piece trip k of loop 2 stores. -/
def piece2 (X : BufTy.Contents (Elt F) arg6.view.ty) (k : Fin k0_t2_loop.trips) : View.Piece (Elt F) S64x32x1 .f32 :=
  ⟨Rect.unit (s := S64x32x1) (k0_off4 k) S1x32x1.size (k0_off4_inb k),
    k0_pay3 v208 v210 (arg6.view.readAt (Elt F) (Rect.unit (s := S64x256x128) (k0_off3 k) S1x256x128.size (k0_off3_inb k)).toLoadRect X)⟩

/-- A trip of loop 2 stores exactly that piece: the trip's run, opened here once. -/
theorem tripL2_eq (X : BufTy.Contents (Elt F) arg6.view.ty) (k : Fin k0_t2_loop.trips) :
    tripL_k0_t2 (F := F) 𝒱 c bd i arg1 harg1 arg2 harg2 arg3 harg3 arg4 harg4 arg5 harg5 arg6 harg6 arg7 harg7 arg8 harg8 v208 v210 X k
      = [piece2 arg6 v208 v210 X k] := by
  unfold tripL_k0_t2 trip_k0_t2 piece2
  rfl

theorem mem_acc2 (X : BufTy.Contents (Elt F) arg6.view.ty) :
    ∀ (n : ℕ), n ≤ k0_t2_loop.trips → ∀ k : Fin k0_t2_loop.trips, k.val < n →
      piece2 arg6 v208 v210 X k ∈ pb_k0_t2 (F := F) 𝒱 c bd i arg1 harg1 arg2 harg2 arg3 harg3 arg4 harg4 arg5 harg5 arg6 harg6 arg7 harg7 arg8 harg8 v208 v210 X n
  | 0, _, k, hk => absurd hk (Nat.not_lt_zero _)
  | n + 1, hn, k, hk => by
    have e := pb_k0_t2_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t2_loop.trips).val + 1 = n + 1 from rfl, tripL2_eq] at e
    rw [e]
    by_cases h : k.val = n
    · have : k = ⟨n, hn⟩ := Fin.ext h
      subst this
      exact List.mem_append_left _ (List.mem_singleton_self _)
    · exact List.mem_append_right _ (mem_acc2 X n (Nat.le_of_succ_le hn) k (by omega))

theorem acc2_mem (X : BufTy.Contents (Elt F) arg6.view.ty) :
    ∀ (n : ℕ), n ≤ k0_t2_loop.trips →
      ∀ p ∈ pb_k0_t2 (F := F) 𝒱 c bd i arg1 harg1 arg2 harg2 arg3 harg3 arg4 harg4 arg5 harg5 arg6 harg6 arg7 harg7 arg8 harg8 v208 v210 X n,
        ∃ k : Fin k0_t2_loop.trips, p = piece2 arg6 v208 v210 X k
  | 0, _, p, hp => by rw [pb_k0_t2.eq_1] at hp; exact absurd hp (List.not_mem_nil)
  | n + 1, hn, p, hp => by
    have e := pb_k0_t2_succ (F := F) 𝒱 c bd i arg1 harg1 arg2 harg2 arg3 harg3 arg4 harg4 arg5 harg5 arg6 harg6 arg7 harg7 arg8 harg8 v208 v210 X ⟨n, hn⟩
    rw [show (⟨n, hn⟩ : Fin k0_t2_loop.trips).val + 1 = n + 1 from rfl, tripL2_eq] at e
    rw [e] at hp
    rcases List.mem_append.mp hp with h | h
    · exact ⟨⟨n, hn⟩, List.mem_singleton.mp h⟩
    · exact acc2_mem X n (Nat.le_of_succ_le hn) p h

theorem mem_piece2 (X : BufTy.Contents (Elt F) arg6.view.ty) (y : S64x32x1.Idx) (h : (y 0).val < k0_t2_loop.trips) :
    y ∈ (piece2 arg6 v208 v210 X ⟨(y 0).val, h⟩).1.set := by
  unfold piece2
  rw [Rect.mem_set_unit, k0_off4_eq]
  intro a
  have ha := (y a).isLt
  match a with
  | ⟨0, _⟩ => exact ⟨Nat.le_refl _, Nat.lt_succ_self _⟩
  | ⟨1, _⟩ => exact ⟨Nat.zero_le _, by simpa using ha⟩
  | ⟨2, _⟩ => exact ⟨Nat.zero_le _, by simpa using ha⟩

theorem cover2 (X : BufTy.Contents (Elt F) arg6.view.ty) (y : S64x32x1.Idx) :
    ∃ p ∈ pb_k0_t2 (F := F) 𝒱 c bd i arg1 harg1 arg2 harg2 arg3 harg3 arg4 harg4 arg5 harg5 arg6 harg6 arg7 harg7 arg8 harg8 v208 v210 X k0_t2_loop.trips,
      y ∈ p.1.set :=
  have h : (y 0).val < k0_t2_loop.trips := by rw [trips2]; exact (y 0).isLt
  ⟨_, mem_acc2 𝒱 c bd i arg1 harg1 arg2 harg2 arg3 harg3 arg4 harg4 arg5 harg5 arg6 harg6 arg7 harg7 arg8 harg8 v208 v210 X _ (Nat.le_refl _) ⟨(y 0).val, h⟩ h,
    mem_piece2 arg6 v208 v210 X y h⟩

end Cert.KernelIdeal.Trips

end
-- ==== Proof.Spec.lean ====
/-
  The mathematics both programs compute, stated once and free of either program.

  A row x of n extended reals is scaled to unit length the way `torch.nn.functional.normalize` does it:
  x_d / max(√(Σ_e x_e²), ε). A query b has 32 token rows of 128 entries, a document c has 256 token rows of
  128 entries; with every row so scaled, MaxSim(b, c) is the MEAN over the query's 32 tokens of the LARGEST dot
  product of that token with any of the document's 256 tokens. The score table has a row per query and 128
  columns — the 64 positive documents, then the 64 negative ones — each entry MaxSim divided by the temperature.

  The one arithmetic fact in the whole comparison is the last step: dividing by the temperature word
  13421773/268435456 is, on EVERY extended real, multiplying by 268435456/13421773 (`div_temp`). Everything
  before it is the same sums, maxima and quotients in the same order, up to the order of the two factors of a
  product; nothing here needs an entry to be finite.
-/
import Idealize.ShloMosaic.PureOps.Ideal
import Idealize.ShloMosaic.Lib.ValueIdx

noncomputable section

open scoped BigOperators

namespace MaxSim

open Idealize.ShloMosaic Idealize.ShloMosaic.ValueIdx

/-- The queries: 64 queries of 32 tokens of 128 entries. -/
abbrev QS : Shape := ⟨3, ![64, 32, 128]⟩
/-- One family of documents (positive or negative): 64 documents of 256 tokens of 128 entries. -/
abbrev DS : Shape := ⟨3, ![64, 256, 128]⟩
/-- The score table: 64 queries by 128 documents. -/
abbrev TS : Shape := ⟨2, ![64, 128]⟩

/-- The guard ε under the norm, as the word both programs carry. -/
def eps : EReal := Ideal.ofBits .f32 0x2B8CBCCC#32

/-- A row scaled to unit length: entry d over the larger of the row's Euclidean norm and ε. -/
def unitRow {n : ℕ} (x : Fin n → EReal) (d : Fin n) : EReal :=
  Ideal.div (x d) (max (Ideal.sqrt (∑ e : Fin n, x e * x e)) eps)

/-- Token t of query b, scaled. -/
def qUnit (q : QS.Idx → EReal) (b : Fin 64) (t : Fin 32) (d : Fin 128) : EReal :=
  unitRow (fun e => q (ix3 b t e)) d

/-- Token k of document c, scaled. -/
def dUnit (x : DS.Idx → EReal) (c : Fin 64) (k : Fin 256) (d : Fin 128) : EReal :=
  unitRow (fun e => x (ix3 c k e)) d

/-- The dot product of query b's token t with document c's token k. -/
def tokenDot (q : QS.Idx → EReal) (x : DS.Idx → EReal) (b c : Fin 64) (t : Fin 32) (k : Fin 256) : EReal :=
  ∑ d : Fin 128, qUnit q b t d * dUnit x c k d

/-- The best match of query b's token t among document c's tokens: the maximum from −∞. -/
def bestDot (q : QS.Idx → EReal) (x : DS.Idx → EReal) (b c : Fin 64) (t : Fin 32) : EReal :=
  (Finset.univ : Finset (Fin 256)).fold max (Ideal.ofBits .f32 0xFF800000#32) (fun k => tokenDot q x b c t k)

/-- MaxSim: the mean over the query's 32 tokens of the best matches. -/
def maxSim (q : QS.Idx → EReal) (x : DS.Idx → EReal) (b c : Fin 64) : EReal :=
  Ideal.div (∑ t : Fin 32, bestDot q x b c t) (Ideal.ofBits .f32 0x42000000#32)

/-- The reciprocal of the temperature word 13421773/268435456. -/
def invTemp : EReal := ((268435456 / 13421773 : ℝ) : EReal)

/-- Entry (b, c) of the score table: columns below 64 are the positive documents, the rest the negative ones. -/
def scoreAt (q : QS.Idx → EReal) (pos neg : DS.Idx → EReal) (b : Fin 64) (c : Fin 128) : EReal :=
  (if h : c.val < 64 then maxSim q pos b ⟨c.val, h⟩ else maxSim q neg b ⟨c.val - 64, by omega⟩) * invTemp

/-- The score table as one function of the three argument arrays. -/
def scores (q : QS.Idx → EReal) (pos neg : DS.Idx → EReal) : TS.Idx → EReal := fun j =>
  scoreAt q pos neg ⟨(j 0).val, idx2_lt0 j⟩ ⟨(j 1).val, idx2_lt1 j⟩

theorem scores_ix2 (q : QS.Idx → EReal) (pos neg : DS.Idx → EReal) (b : Fin 64) (c : Fin 128) :
    scores q pos neg (ix2 b c) = scoreAt q pos neg b c := rfl

/-- The temperature word denotes 13421773/268435456. -/
theorem ofBits_temp : Ideal.ofBits .f32 0x3D4CCCCD#32 = ((13421773 / 268435456 : ℝ) : EReal) := by
  simp [Ideal.ofBits, Ideal.ieee, -EReal.coe_mul]; norm_num

/-- Dividing by the temperature is multiplying by its reciprocal, at every extended real. -/
theorem div_temp (x : EReal) : Ideal.div x (Ideal.ofBits .f32 0x3D4CCCCD#32) = x * invTemp := by
  rw [ofBits_temp, Ideal.div_coe (by norm_num : (13421773 / 268435456 : ℝ) ≠ 0)]
  unfold invTemp
  congr 2
  norm_num

end MaxSim

end
-- ==== Proof.PayIdeal.lean ====
/-
  The kernel's arithmetic, read at an index.

  Every value the kernel stores is one pure term of the values it loaded. Read at an index, each is a piece of the
  same mathematics: a token row scaled to unit length (each entry over the larger of the row's Euclidean norm and
  the guard word), the dot products of a scaled query token with a document's token rows, their maximum, the mean of
  the maxima over a query's 32 tokens, and the two result columns laid side by side and multiplied by the
  reciprocal of the temperature.
-/
import proofs.«155816_j17282948399256_1_alg».proof.Proof.Gen.KernelIdeal.Skeleton
import proofs.«155816_j17282948399256_1_alg».proof.Proof.Spec
import Idealize.ShloMosaic.Lib.ValueIdx
import Idealize.ShloMosaic.Lib.ValueLayout
import Idealize.ShloMosaic.Lib.Pipeline.Value
import Idealize.ShloMosaic.PureOps.Ideal
import Idealize.ShloMosaic.PureOps.Ideal.Laws
import Idealize.ShloMosaic.PureOps.IdealRules

noncomputable section

open scoped BigOperators

namespace Cert.KernelIdeal.Pay

open Cert.KernelIdeal Cert.KernelIdeal.Gen Idealize.ShloMosaic Idealize.ShloMosaic.ValueIdx
open Cert.KernelIdeal.Facts₀ Cert.KernelIdeal.Facts

/-! ## A row's sum of squares, its norm column, and the row scaled -/

/-- The reduced index (a, k) with the lane e put back is (a, k, e). -/
theorem lift_ix3_last {A K D : ℕ} (h : (⟨3, ![A, K, D]⟩ : Shape).Reduces [2] (⟨2, ![A, K]⟩ : Shape)) (a : Fin A) (k : Fin K)
    (e : Fin ((⟨3, ![A, K, D]⟩ : Shape).size 2)) : h.lift (ix2 a k) e = ix3 a k (⟨e.val, e.isLt⟩ : Fin D) := by
  funext c; apply Fin.ext
  fin_cases c <;> rfl

/-- The lane sum of the squares of row (a, k) is the sum over the row's entries of each entry times itself. -/
theorem sumsq_apply {A K D : ℕ} (v : FVec Ideal ⟨3, ![A, K, D]⟩ .f32)
    (h : (⟨3, ![A, K, D]⟩ : Shape).Reduces [2] (⟨2, ![A, K]⟩ : Shape)) (hφ : FKind.Formats .f32)
    (hacc : (0x00000000#32 : BitVec (FTy.bits .f32)) = FKind.add.neutral .f32 hφ) (a : Fin A) (k : Fin K) :
    multiReduction (F := Ideal) .add [2] ⟨2, ![A, K]⟩ (mulf v v) 0x00000000#32 h hφ hacc (ix2 a k)
      = ∑ e : Fin D, v (ix3 a k e) * v (ix3 a k e) := by
  rw [Ideal.multiReduction_add_single]
  refine Finset.sum_congr rfl fun e _ => ?_
  rw [lift_ix3_last h a k e]
  rfl

/-- A [A, K] array viewed as an [A, K, 1] column reads, at (a, k, 0), the array at (a, k). -/
theorem shapeCast_keepdims_apply {α : Type} {A K : ℕ} (x : (⟨2, ![A, K]⟩ : Shape).Idx → α)
    (h : (⟨2, ![A, K]⟩ : Shape).ShapeCasts ⟨3, ![A, K, 1]⟩) (a : Fin A) (k : Fin K) (z : Fin 1) :
    shapeCast ⟨3, ![A, K, 1]⟩ x h (ix3 a k z) = x (ix2 a k) := by
  refine shapeCast_apply x h _ (ix2 a k) ?_
  rw [Shape.rowMajor_val_two, Shape.rowMajor_val_three]
  have hz : z.val = 0 := by have := z.isLt; omega
  show a.val * K + k.val = (a.val * K + k.val) * 1 + z.val
  omega

/-- An [A, K, 1] column spread along D lanes reads, at (a, k, d), the column at (a, k, 0). -/
theorem broadcastTo_column_apply {α : Type} {A K D : ℕ} (x : (⟨3, ![A, K, 1]⟩ : Shape).Idx → α)
    (h : (⟨3, ![A, K, 1]⟩ : Shape).Broadcasts ⟨3, ![A, K, D]⟩) (a : Fin A) (k : Fin K) (d : Fin D) :
    broadcastTo ⟨3, ![A, K, D]⟩ x h (ix3 a k d) = x (ix3 a k (0 : Fin 1)) := by
  refine broadcastTo_apply x h _ (ix3 a k (0 : Fin 1)) fun c => ?_
  match c with
  | ⟨0, _⟩ =>
    show a.val = if A = 1 then 0 else a.val
    split_ifs with hA
    · have := a.isLt; omega
    · rfl
  | ⟨1, _⟩ =>
    show k.val = if K = 1 then 0 else k.val
    split_ifs with hK
    · have := k.isLt; omega
    · rfl
  | ⟨2, _⟩ =>
    show (0 : ℕ) = if (1 : ℕ) = 1 then 0 else d.val
    rw [if_pos rfl]

/-- The divisor of row (a, k): the larger of the column entry and the guard word, the same at every lane. -/
theorem denom_apply {A K D : ℕ} (c : FVec Ideal ⟨3, ![A, K, 1]⟩ .f32)
    (hb : (⟨3, ![A, K, 1]⟩ : Shape).Broadcasts ⟨3, ![A, K, D]⟩) (a : Fin A) (k : Fin K) (d : Fin D) :
    broadcastTo ⟨3, ![A, K, D]⟩ (maximumf c (broadcast ⟨3, ![A, K, 1]⟩ (Scalar.ofBits (F := Ideal) .f32 0x2B8CBCCC#32))) hb (ix3 a k d)
      = max (c (ix3 a k (0 : Fin 1))) MaxSim.eps := by
  rw [broadcastTo_column_apply, maximumf_apply, broadcast_apply]
  rfl

/-- The norm column of v: at (a, k, 0) the square root of row (a, k)'s sum of squares. -/
theorem normCol_apply {A K D : ℕ} (v : FVec Ideal ⟨3, ![A, K, D]⟩ .f32)
    (h : (⟨3, ![A, K, D]⟩ : Shape).Reduces [2] (⟨2, ![A, K]⟩ : Shape)) (hφ : FKind.Formats .f32)
    (hacc : (0x00000000#32 : BitVec (FTy.bits .f32)) = FKind.add.neutral .f32 hφ)
    (hs : (⟨2, ![A, K]⟩ : Shape).ShapeCasts ⟨3, ![A, K, 1]⟩) (a : Fin A) (k : Fin K) :
    sqrt (F := Ideal) (shapeCast ⟨3, ![A, K, 1]⟩ (multiReduction (F := Ideal) .add [2] ⟨2, ![A, K]⟩ (mulf v v) 0x00000000#32 h hφ hacc) hs)
        (ix3 a k (0 : Fin 1))
      = Ideal.sqrt (∑ e : Fin D, v (ix3 a k e) * v (ix3 a k e)) := by
  show Ideal.sqrt (shapeCast ⟨3, ![A, K, 1]⟩ (multiReduction (F := Ideal) .add [2] ⟨2, ![A, K]⟩ (mulf v v) 0x00000000#32 h hφ hacc) hs
        (ix3 a k (0 : Fin 1))) = _
  rw [shapeCast_keepdims_apply, sumsq_apply]

/-- The whole chain: row (a, k) of v, each entry over the larger of the row's norm and the guard word. -/
theorem unit_chain {A K D : ℕ} (v : FVec Ideal ⟨3, ![A, K, D]⟩ .f32)
    (h : (⟨3, ![A, K, D]⟩ : Shape).Reduces [2] (⟨2, ![A, K]⟩ : Shape)) (hφ : FKind.Formats .f32)
    (hacc : (0x00000000#32 : BitVec (FTy.bits .f32)) = FKind.add.neutral .f32 hφ)
    (hs : (⟨2, ![A, K]⟩ : Shape).ShapeCasts ⟨3, ![A, K, 1]⟩)
    (hb : (⟨3, ![A, K, 1]⟩ : Shape).Broadcasts ⟨3, ![A, K, D]⟩) (hlt : FTy.bits .bf16 < FTy.bits .f32)
    (a : Fin A) (k : Fin K) (d : Fin D) :
    (truncf .bf16 (divf v (broadcastTo ⟨3, ![A, K, D]⟩
        (maximumf (sqrt (F := Ideal) (shapeCast ⟨3, ![A, K, 1]⟩
            (multiReduction (F := Ideal) .add [2] ⟨2, ![A, K]⟩ (mulf v v) 0x00000000#32 h hφ hacc) hs))
          (broadcast ⟨3, ![A, K, 1]⟩ (Scalar.ofBits (F := Ideal) .f32 0x2B8CBCCC#32))) hb)) hlt : FVec Ideal ⟨3, ![A, K, D]⟩ .bf16)
        (ix3 a k d)
      = MaxSim.unitRow (fun e => v (ix3 a k e)) d := by
  rw [truncf_apply, divf_apply, denom_apply, normCol_apply]
  rfl

/-! ## One chunk of eight documents scaled

Each of the sixteen stored chunk values is the same chain on its own chunk v: at (a, k, d), entry d of token row k of
document a of the chunk, over the larger of that row's norm and the guard word. -/

theorem chunk5 (v : FVec Ideal S8x256x128 .f32) (a : Fin 8) (k : Fin 256) (d : Fin 128) :
    k0_pay5 (F := Ideal) v (ix3 a k d) = MaxSim.unitRow (fun e => v (ix3 a k e)) d := by
  unfold k0_pay5
  rw [shapeCast_self]
  exact unit_chain v _ _ _ _ _ _ a k d

theorem chunk6 (v : FVec Ideal S8x256x128 .f32) (a : Fin 8) (k : Fin 256) (d : Fin 128) :
    k0_pay6 (F := Ideal) v (ix3 a k d) = MaxSim.unitRow (fun e => v (ix3 a k e)) d := by
  unfold k0_pay6
  rw [shapeCast_self]
  exact unit_chain v _ _ _ _ _ _ a k d

theorem chunk8 (v : FVec Ideal S8x256x128 .f32) (a : Fin 8) (k : Fin 256) (d : Fin 128) :
    k0_pay8 (F := Ideal) (k0_pay7 (F := Ideal) v) (ix3 a k d) = MaxSim.unitRow (fun e => v (ix3 a k e)) d := by
  unfold k0_pay8 k0_pay7
  rw [shapeCast_self]
  exact unit_chain v _ _ _ _ _ _ a k d

theorem chunk9 (v : FVec Ideal S8x256x128 .f32) (a : Fin 8) (k : Fin 256) (d : Fin 128) :
    k0_pay9 (F := Ideal) v (ix3 a k d) = MaxSim.unitRow (fun e => v (ix3 a k e)) d := by
  unfold k0_pay9
  rw [shapeCast_self]
  exact unit_chain v _ _ _ _ _ _ a k d

theorem chunk10 (v : FVec Ideal S8x256x128 .f32) (a : Fin 8) (k : Fin 256) (d : Fin 128) :
    k0_pay10 (F := Ideal) v (ix3 a k d) = MaxSim.unitRow (fun e => v (ix3 a k e)) d := by
  unfold k0_pay10
  rw [shapeCast_self]
  exact unit_chain v _ _ _ _ _ _ a k d

theorem chunk12 (v : FVec Ideal S8x256x128 .f32) (a : Fin 8) (k : Fin 256) (d : Fin 128) :
    k0_pay12 (F := Ideal) v (k0_pay11 (F := Ideal) v) (ix3 a k d) = MaxSim.unitRow (fun e => v (ix3 a k e)) d := by
  unfold k0_pay12 k0_pay11
  rw [shapeCast_self]
  exact unit_chain v _ _ _ _ _ _ a k d

theorem chunk13 (v : FVec Ideal S8x256x128 .f32) (a : Fin 8) (k : Fin 256) (d : Fin 128) :
    k0_pay13 (F := Ideal) v (ix3 a k d) = MaxSim.unitRow (fun e => v (ix3 a k e)) d := by
  unfold k0_pay13
  rw [shapeCast_self]
  exact unit_chain v _ _ _ _ _ _ a k d

theorem chunk14 (v : FVec Ideal S8x256x128 .f32) (a : Fin 8) (k : Fin 256) (d : Fin 128) :
    k0_pay14 (F := Ideal) v (ix3 a k d) = MaxSim.unitRow (fun e => v (ix3 a k e)) d := by
  unfold k0_pay14
  rw [shapeCast_self]
  exact unit_chain v _ _ _ _ _ _ a k d

theorem chunk15 (v : FVec Ideal S8x256x128 .f32) (a : Fin 8) (k : Fin 256) (d : Fin 128) :
    k0_pay15 (F := Ideal) v (ix3 a k d) = MaxSim.unitRow (fun e => v (ix3 a k e)) d := by
  unfold k0_pay15
  rw [shapeCast_self]
  exact unit_chain v _ _ _ _ _ _ a k d

theorem chunk16 (v : FVec Ideal S8x256x128 .f32) (a : Fin 8) (k : Fin 256) (d : Fin 128) :
    k0_pay16 (F := Ideal) v (ix3 a k d) = MaxSim.unitRow (fun e => v (ix3 a k e)) d := by
  unfold k0_pay16
  rw [shapeCast_self]
  exact unit_chain v _ _ _ _ _ _ a k d

theorem chunk18 (v : FVec Ideal S8x256x128 .f32) (a : Fin 8) (k : Fin 256) (d : Fin 128) :
    k0_pay18 (F := Ideal) (k0_pay17 (F := Ideal) v) (ix3 a k d) = MaxSim.unitRow (fun e => v (ix3 a k e)) d := by
  unfold k0_pay18 k0_pay17
  rw [shapeCast_self]
  exact unit_chain v _ _ _ _ _ _ a k d

theorem chunk19 (v : FVec Ideal S8x256x128 .f32) (a : Fin 8) (k : Fin 256) (d : Fin 128) :
    k0_pay19 (F := Ideal) v (ix3 a k d) = MaxSim.unitRow (fun e => v (ix3 a k e)) d := by
  unfold k0_pay19
  rw [shapeCast_self]
  exact unit_chain v _ _ _ _ _ _ a k d

theorem chunk20 (v : FVec Ideal S8x256x128 .f32) (a : Fin 8) (k : Fin 256) (d : Fin 128) :
    k0_pay20 (F := Ideal) v (ix3 a k d) = MaxSim.unitRow (fun e => v (ix3 a k e)) d := by
  unfold k0_pay20
  rw [shapeCast_self]
  exact unit_chain v _ _ _ _ _ _ a k d

theorem chunk22 (v : FVec Ideal S8x256x128 .f32) (a : Fin 8) (k : Fin 256) (d : Fin 128) :
    k0_pay22 (F := Ideal) v (k0_pay21 (F := Ideal) v) (ix3 a k d) = MaxSim.unitRow (fun e => v (ix3 a k e)) d := by
  unfold k0_pay22 k0_pay21
  rw [shapeCast_self]
  exact unit_chain v _ _ _ _ _ _ a k d

theorem chunk23 (v : FVec Ideal S8x256x128 .f32) (a : Fin 8) (k : Fin 256) (d : Fin 128) :
    k0_pay23 (F := Ideal) v (ix3 a k d) = MaxSim.unitRow (fun e => v (ix3 a k e)) d := by
  unfold k0_pay23
  rw [shapeCast_self]
  exact unit_chain v _ _ _ _ _ _ a k d

theorem chunk24 (v : FVec Ideal S8x256x128 .f32) (a : Fin 8) (k : Fin 256) (d : Fin 128) :
    k0_pay24 (F := Ideal) v (ix3 a k d) = MaxSim.unitRow (fun e => v (ix3 a k e)) d := by
  unfold k0_pay24
  rw [shapeCast_self]
  exact unit_chain v _ _ _ _ _ _ a k d

/-! ## The output tile: the two result columns transposed, side by side, times the temperature's reciprocal -/

/-- An [A, B, 1] column viewed as an [A, B] array reads, at (i, j), the column at (i, j, 0). -/
theorem shapeCast_dropLast_apply {α : Type} {A B : ℕ} (x : (⟨3, ![A, B, 1]⟩ : Shape).Idx → α)
    (h : (⟨3, ![A, B, 1]⟩ : Shape).ShapeCasts ⟨2, ![A, B]⟩) (i : Fin A) (j : Fin B) :
    shapeCast ⟨2, ![A, B]⟩ x h (ix2 i j) = x (ix3 i j (0 : Fin 1)) := by
  refine shapeCast_apply x h _ (ix3 i j (0 : Fin 1)) ?_
  rw [Shape.rowMajor_val_three, Shape.rowMajor_val_two]
  show (i.val * B + j.val) * 1 + 0 = i.val * B + j.val
  omega

/-- Two 32 × 64 tables side by side: a column below 64 reads the left table at that column. -/
theorem concat_left_apply {α : Type} (x₁ x₂ : S32x64.Idx → α) (h : Shape.Concatenates [S32x64, S32x64] S32x128 1)
    (b : Fin 32) (c : Fin 128) (hc : c.val < 64) :
    concatenate S32x128 1 [⟨S32x64, x₁⟩, ⟨S32x64, x₂⟩] h (ix2 b c) = x₁ (ix2 b (⟨c.val, hc⟩ : Fin 64)) := by
  refine concatenate_pair_apply_left (1 : Fin S32x128.rank) x₁ x₂ h (ix2 b c) rfl (ix2 b (⟨c.val, hc⟩ : Fin 64)) fun q => ?_
  match q with
  | ⟨0, _⟩ => rfl
  | ⟨1, _⟩ => rfl

/-- … and a column from 64 on reads the right table at that column less 64. -/
theorem concat_right_apply {α : Type} (x₁ x₂ : S32x64.Idx → α) (h : Shape.Concatenates [S32x64, S32x64] S32x128 1)
    (b : Fin 32) (c : Fin 128) (hc : ¬ c.val < 64) :
    concatenate S32x128 1 [⟨S32x64, x₁⟩, ⟨S32x64, x₂⟩] h (ix2 b c)
      = x₂ (ix2 b (⟨c.val - 64, by omega⟩ : Fin 64)) := by
  refine concatenate_pair_apply_right (1 : Fin S32x128.rank) x₁ x₂ h (ix2 b c) rfl rfl
    (ix2 b (⟨c.val - 64, by omega⟩ : Fin 64)) (fun q hq => ?_) ?_
  · match q with
    | ⟨0, _⟩ => rfl
    | ⟨1, _⟩ => exact absurd rfl hq
  · show c.val - 64 + 64 = c.val
    omega

/-- The named constant of the output tile is the reciprocal of the temperature word. -/
theorem named_invTemp :
    Named.named (F := Ideal) Cert.KernelIdeal.κ "fold_c_268435456_13421773" (φ := .f32) 0x41A00000#32 = MaxSim.invTemp := by
  unfold MaxSim.invTemp
  exact IdealRules.named_const.ideal_named_scalar _ _ _ _ rfl

/-- A result column [64, 32, 1] cast to [64, 32] and transposed reads, at (b, c), the column at (c, b, 0). -/
theorem colT_apply (p : FVec Ideal S64x32x1 .f32) (hs : S64x32x1.ShapeCasts S64x32) (ht : S64x32.Transposes [1, 0] S32x64)
    (b : Fin 32) (c : Fin 64) :
    transpose S32x64 [1, 0] (shapeCast S64x32 p hs) ht (ix2 b c) = p (ix3 c b (0 : Fin 1)) := by
  rw [transpose_ix2_apply, shapeCast_dropLast_apply]

/-- The output tile at (b, c): for c below 64 the first column's entry (c, b), else the second's entry (c − 64, b),
    times the reciprocal of the temperature. -/
theorem pay4_apply (p n : FVec Ideal S64x32x1 .f32) (b : Fin 32) (c : Fin 128) :
    k0_pay4 (F := Ideal) p n (ix2 b c) =
      (if h : c.val < 64 then p (ix3 (⟨c.val, h⟩ : Fin 64) b (0 : Fin 1)) else n (ix3 (⟨c.val - 64, by omega⟩ : Fin 64) b (0 : Fin 1))) * MaxSim.invTemp := by
  unfold k0_pay4
  rw [mulf_apply, broadcast_apply, named_invTemp]
  congr 1
  by_cases h : c.val < 64
  · rw [dif_pos h, concat_left_apply _ _ _ b c h, colT_apply]
  · rw [dif_neg h, concat_right_apply _ _ _ b c h, colT_apply]

/-! ## The query tile scaled and flattened -/

/-- The [32, 32, 128] tile viewed as [1024, 128]: row 32·b + t is token t of query b. -/
theorem flatten_apply {α : Type} (x : S32x32x128.Idx → α) (h : S32x32x128.ShapeCasts S1024x128) (b t : Fin 32) (d : Fin 128) :
    shapeCast S1024x128 x h (ix2 (⟨32 * b.val + t.val, by omega⟩ : Fin 1024) d) = x (ix3 b t d) := by
  refine shapeCast_apply x h _ (ix3 b t d) ?_
  rw [Shape.rowMajor_val_three, Shape.rowMajor_val_two]
  show (b.val * 32 + t.val) * 128 + d.val = (32 * b.val + t.val) * 128 + d.val
  omega

/-- Row 32·b + t of the flattened tile is token t of query b scaled to unit length. -/
theorem pay1_apply (v : FVec Ideal S32x32x128 .f32) (b : Fin 32) (t : Fin 32) (d : Fin 128) :
    k0_pay1 (F := Ideal) v (k0_pay25 (F := Ideal) v) (ix2 (⟨32 * b.val + t.val, by omega⟩ : Fin 1024) d)
      = MaxSim.unitRow (fun e => v (ix3 b t e)) d := by
  unfold k0_pay1 k0_pay25
  rw [flatten_apply]
  exact unit_chain v _ _ _ _ _ _ b t d

/-! ## One document against the query tile: dot products, their maxima, the mean -/

/-- A row of the product table draws its left factor from the same row. -/
theorem lhs_axis0 (i : S1024x256.Idx) (q : dot_S1024x128_S256x128_S1024x256_1_1_0_0_n_n.contr.Idx) :
    (dot_S1024x128_S256x128_S1024x256_1_1_0_0_n_n.lhsIdx i q 0).val = (i 0).val := by
  unfold DotDims.lhsIdx
  rw [dif_neg (show ¬(0 : Fin S1024x128.rank) ∈ dot_S1024x128_S256x128_S1024x256_1_1_0_0_n_n.lhsBatch by decide), dif_pos (show (0 : Fin S1024x128.rank) ∈ dot_S1024x128_S256x128_S1024x256_1_1_0_0_n_n.lhsNonContracting by decide)]
  rfl
/-- The left factor's lane is the summation index. -/
theorem lhs_axis1 (i : S1024x256.Idx) (q : dot_S1024x128_S256x128_S1024x256_1_1_0_0_n_n.contr.Idx) :
    (dot_S1024x128_S256x128_S1024x256_1_1_0_0_n_n.lhsIdx i q 1).val = (q ⟨0, by decide⟩).val :=
  dot_S1024x128_S256x128_S1024x256_1_1_0_0_n_n.lhsIdx_val_of_single rfl i q
/-- A column of the product table draws its right factor from the row of that number. -/
theorem rhs_axis0 (i : S1024x256.Idx) (q : dot_S1024x128_S256x128_S1024x256_1_1_0_0_n_n.contr.Idx) :
    (dot_S1024x128_S256x128_S1024x256_1_1_0_0_n_n.rhsIdx i q 0).val = (i 1).val := by
  unfold DotDims.rhsIdx
  rw [dif_neg (show ¬(0 : Fin S256x128.rank) ∈ dot_S1024x128_S256x128_S1024x256_1_1_0_0_n_n.rhsBatch by decide), dif_pos (show (0 : Fin S256x128.rank) ∈ dot_S1024x128_S256x128_S1024x256_1_1_0_0_n_n.rhsNonContracting by decide)]
  rfl
/-- The right factor's lane is the summation index. -/
theorem rhs_axis1 (i : S1024x256.Idx) (q : dot_S1024x128_S256x128_S1024x256_1_1_0_0_n_n.contr.Idx) :
    (dot_S1024x128_S256x128_S1024x256_1_1_0_0_n_n.rhsIdx i q 1).val = (q ⟨0, by decide⟩).val :=
  dot_S1024x128_S256x128_S1024x256_1_1_0_0_n_n.rhsIdx_val_of_single rfl i q

/-- The product table at (r, k): the dot product of row r of the left operand with row k of the right. -/
theorem matmul_rows_apply (L : FVec Ideal S1024x128 .bf16) (R : FVec Ideal S256x128 .bf16) (r : Fin 1024) (k : Fin 256) :
    matmul dot_S1024x128_S256x128_S1024x256_1_1_0_0_n_n none L R (constant (F := Ideal) S1024x256 .f32 0x00000000#32) (ix2 r k)
      = ∑ d : Fin 128, L (ix2 r d) * R (ix2 k d) := by
  simp only [matmul]
  rw [Ideal.matmul_constant_zero_apply, ← Equiv.sum_comp (contrEquiv1 dot_S1024x128_S256x128_S1024x256_1_1_0_0_n_n 128 rfl rfl).symm]
  refine Finset.sum_congr rfl fun d _ => ?_
  have hk := contrEquiv1_symm_val dot_S1024x128_S256x128_S1024x256_1_1_0_0_n_n 128 rfl rfl d
  have el : dot_S1024x128_S256x128_S1024x256_1_1_0_0_n_n.lhsIdx (ix2 r k) ((contrEquiv1 dot_S1024x128_S256x128_S1024x256_1_1_0_0_n_n 128 rfl rfl).symm d) = ix2 r d := funext fun a => Fin.ext (by
    match a with
    | ⟨0, _⟩ => exact lhs_axis0 _ _
    | ⟨1, _⟩ => exact (lhs_axis1 _ _).trans hk)
  have er : dot_S1024x128_S256x128_S1024x256_1_1_0_0_n_n.rhsIdx (ix2 r k) ((contrEquiv1 dot_S1024x128_S256x128_S1024x256_1_1_0_0_n_n 128 rfl rfl).symm d) = ix2 k d := funext fun a => Fin.ext (by
    match a with
    | ⟨0, _⟩ => exact rhs_axis0 _ _
    | ⟨1, _⟩ => exact (rhs_axis1 _ _).trans hk)
  rw [el, er]

/-- The [1024, 256] product table viewed as [32, 32, 256]: entry (b, t, k) is row 32·b + t, column k. -/
theorem unflatten_apply {α : Type} (x : S1024x256.Idx → α) (h : S1024x256.ShapeCasts S32x32x256) (b t : Fin 32) (k : Fin 256) :
    shapeCast S32x32x256 x h (ix3 b t k) = x (ix2 (⟨32 * b.val + t.val, by omega⟩ : Fin 1024) k) := by
  refine shapeCast_apply x h _ (ix2 (⟨32 * b.val + t.val, by omega⟩ : Fin 1024) k) ?_
  rw [Shape.rowMajor_val_three, Shape.rowMajor_val_two]
  show (32 * b.val + t.val) * 256 + k.val = (b.val * 32 + t.val) * 256 + k.val
  omega

/-- The largest entry of row (a, k), from the accumulator word −∞. -/
theorem rowmax_apply {A K D : ℕ} (x : FVec Ideal ⟨3, ![A, K, D]⟩ .f32)
    (h : (⟨3, ![A, K, D]⟩ : Shape).Reduces [2] (⟨2, ![A, K]⟩ : Shape)) (hφ : FKind.Formats .f32)
    (hacc : (0xFF800000#32 : BitVec (FTy.bits .f32)) = FKind.maximumf.neutral .f32 hφ) (a : Fin A) (k : Fin K) :
    multiReduction (F := Ideal) .maximumf [2] ⟨2, ![A, K]⟩ x 0xFF800000#32 h hφ hacc (ix2 a k)
      = (Finset.univ : Finset (Fin D)).fold max (Ideal.ofBits .f32 0xFF800000#32) (fun e => x (ix3 a k e)) := by
  rw [Ideal.multiReduction_maximumf_single]
  have hf : (x ∘ h.lift (ix2 a k)) = fun e : Fin D => x (ix3 a k e) := funext fun e => by
    show x (h.lift (ix2 a k) e) = _
    rw [lift_ix3_last h a k e]
    rfl
  rw [hf]
  rfl

/-- The reduced index a with the column t put back is (a, t). -/
theorem lift_ix2_last {A K : ℕ} (h : (⟨2, ![A, K]⟩ : Shape).Reduces [1] (⟨1, ![A]⟩ : Shape)) (a : Fin A)
    (e : Fin ((⟨2, ![A, K]⟩ : Shape).size 1)) : h.lift (ix1 a) e = ix2 a (⟨e.val, e.isLt⟩ : Fin K) := by
  funext c; apply Fin.ext
  fin_cases c <;> rfl

/-- The sum of row a of a table. -/
theorem rowsum_apply {A K : ℕ} (x : FVec Ideal ⟨2, ![A, K]⟩ .f32)
    (h : (⟨2, ![A, K]⟩ : Shape).Reduces [1] (⟨1, ![A]⟩ : Shape)) (hφ : FKind.Formats .f32)
    (hacc : (0x00000000#32 : BitVec (FTy.bits .f32)) = FKind.add.neutral .f32 hφ) (a : Fin A) :
    multiReduction (F := Ideal) .add [1] ⟨1, ![A]⟩ x 0x00000000#32 h hφ hacc (ix1 a) = ∑ t : Fin K, x (ix2 a t) := by
  rw [Ideal.multiReduction_add_single]
  refine Finset.sum_congr rfl fun e _ => ?_
  rw [lift_ix2_last h a e]
  rfl

/-- A list of A numbers viewed as an [A, 1] column reads, at (a, 0), entry a. -/
theorem shapeCast_a_a1_apply {α : Type} {A : ℕ} (x : (⟨1, ![A]⟩ : Shape).Idx → α)
    (h : (⟨1, ![A]⟩ : Shape).ShapeCasts ⟨2, ![A, 1]⟩) (a : Fin A) (z : Fin 1) :
    shapeCast ⟨2, ![A, 1]⟩ x h (ix2 a z) = x (ix1 a) := by
  refine shapeCast_apply x h _ (ix1 a) ?_
  rw [Shape.rowMajor_val_one, Shape.rowMajor_val_two]
  have hz : z.val = 0 := by have := z.isLt; omega
  show a.val = a.val * 1 + z.val
  omega

/-- An [A, 1] column viewed as a [1, A, 1] block reads, at (0, a, 0), the column at (a, 0). -/
theorem shapeCast_a1_1a1_apply {α : Type} {A : ℕ} (x : (⟨2, ![A, 1]⟩ : Shape).Idx → α)
    (h : (⟨2, ![A, 1]⟩ : Shape).ShapeCasts ⟨3, ![1, A, 1]⟩) (y : Fin 1) (a : Fin A) (z : Fin 1) :
    shapeCast ⟨3, ![1, A, 1]⟩ x h (ix3 y a z) = x (ix2 a z) := by
  refine shapeCast_apply x h _ (ix2 a z) ?_
  rw [Shape.rowMajor_val_two, Shape.rowMajor_val_three]
  have hy : y.val = 0 := by have := y.isLt; omega
  show a.val * 1 + z.val = (y.val * A + a.val) * 1 + z.val
  rw [hy]
  omega

/-- The chain of one trip: for query b, the mean over its 32 tokens of the largest dot product of that token's row of
    the left table with any of the document's 256 token rows. -/
theorem means_chain (L : FVec Ideal S1024x128 .bf16) (doc : FVec Ideal S1x256x128 .bf16)
    (h1 : S1x256x128.ShapeCasts S256x128) (h2 : S1024x256.ShapeCasts S32x32x256)
    (h3 : S32x32x256.Reduces [2] S32x32) (hφ3 : FKind.Formats .f32)
    (hacc3 : (0xFF800000#32 : BitVec (FTy.bits .f32)) = FKind.maximumf.neutral .f32 hφ3)
    (h4 : S32x32.Reduces [1] S32) (hφ4 : FKind.Formats .f32)
    (hacc4 : (0x00000000#32 : BitVec (FTy.bits .f32)) = FKind.add.neutral .f32 hφ4)
    (h5 : S32.ShapeCasts S32x1) (h6 : S32x1.ShapeCasts S1x32x1) (b : Fin 32) :
    shapeCast S1x32x1 (divf (shapeCast S32x1 (multiReduction (F := Ideal) .add [1] S32
        (multiReduction (F := Ideal) .maximumf [2] S32x32
          (shapeCast S32x32x256 (matmul dot_S1024x128_S256x128_S1024x256_1_1_0_0_n_n none L (shapeCast S256x128 doc h1)
            (constant (F := Ideal) S1024x256 .f32 0x00000000#32)) h2) 0xFF800000#32 h3 hφ3 hacc3)
        0x00000000#32 h4 hφ4 hacc4) h5) (broadcast S32x1 (Scalar.ofBits (F := Ideal) .f32 0x42000000#32))) h6
        (ix3 (0 : Fin 1) b (0 : Fin 1))
      = Ideal.div (∑ t : Fin 32, (Finset.univ : Finset (Fin 256)).fold max (Ideal.ofBits .f32 0xFF800000#32)
          (fun k => ∑ d : Fin 128, L (ix2 (⟨32 * b.val + t.val, by omega⟩ : Fin 1024) d) * doc (ix3 (0 : Fin 1) k d)))
          (Ideal.ofBits .f32 0x42000000#32) := by
  rw [shapeCast_a1_1a1_apply, divf_apply, broadcast_apply, shapeCast_a_a1_apply, rowsum_apply]
  refine congrArg (fun s => Ideal.div s (Ideal.ofBits .f32 0x42000000#32)) ?_
  refine Finset.sum_congr rfl fun t _ => ?_
  rw [rowmax_apply]
  refine congrArg (fun f => (Finset.univ : Finset (Fin 256)).fold max (Ideal.ofBits .f32 0xFF800000#32) f) ?_
  funext k
  rw [unflatten_apply, matmul_rows_apply]
  refine Finset.sum_congr rfl fun d _ => ?_
  rw [shapeCast_1ab_ab_apply]

theorem pay2_apply (v : FVec Ideal S32x32x128 .f32) (w : FVec Ideal S32x32 .f32) (doc : FVec Ideal S1x256x128 .bf16) (b : Fin 32) :
    k0_pay2 (F := Ideal) v w doc (ix3 (0 : Fin 1) b (0 : Fin 1)) =
      Ideal.div (∑ t : Fin 32, (Finset.univ : Finset (Fin 256)).fold max (Ideal.ofBits .f32 0xFF800000#32)
        (fun k => ∑ d : Fin 128, k0_pay1 (F := Ideal) v w (ix2 (⟨32 * b.val + t.val, by omega⟩ : Fin 1024) d) * doc (ix3 (0 : Fin 1) k d)))
        (Ideal.ofBits .f32 0x42000000#32) := by
  unfold k0_pay2
  exact means_chain (k0_pay1 (F := Ideal) v w) doc _ _ _ _ _ _ _ _ _ _ b

theorem pay3_apply (v : FVec Ideal S32x32x128 .f32) (w : FVec Ideal S32x32 .f32) (doc : FVec Ideal S1x256x128 .bf16) (b : Fin 32) :
    k0_pay3 (F := Ideal) v w doc (ix3 (0 : Fin 1) b (0 : Fin 1)) =
      Ideal.div (∑ t : Fin 32, (Finset.univ : Finset (Fin 256)).fold max (Ideal.ofBits .f32 0xFF800000#32)
        (fun k => ∑ d : Fin 128, k0_pay1 (F := Ideal) v w (ix2 (⟨32 * b.val + t.val, by omega⟩ : Fin 1024) d) * doc (ix3 (0 : Fin 1) k d)))
        (Ideal.ofBits .f32 0x42000000#32) := by
  unfold k0_pay3
  exact means_chain (k0_pay1 (F := Ideal) v w) doc _ _ _ _ _ _ _ _ _ _ b

end Cert.KernelIdeal.Pay

end
-- ==== Proof.RowsIdeal.lean ====
/-
  The two result scratches after their loops, read back as one function each.

  Loop 1 leaves, for every positive document c, the 32 means of the query tile against c as row c of the third
  scratch (Proof/TripsIdeal.lean: one box [c, c+1) x 32 x 1 per trip). So after the 64 trips, whatever the scratch
  held before, its entry (c, b, 0) is trip c's payload at (0, b, 0): the means computed from the query tile and from
  row-block c of the first scratch (`canon1`). Loop 2 is the same over the negative documents and the second and
  fourth scratches (`canon2`).
-/
import proofs.«155816_j17282948399256_1_alg».proof.Proof.TripsIdeal
import Idealize.ShloMosaic.Lib.Pipeline.Value
import Idealize.ShloMosaic.Lib.ValueIdx

set_option maxRecDepth 16384

noncomputable section

namespace Cert.KernelIdeal.Rows

open Cert.KernelIdeal Cert.KernelIdeal.Gen Cert.KernelIdeal.Trips
open Idealize.ShloMosaic Idealize.ShloMosaic.TcCoe Idealize.ShloMosaic.ValueIdx
open Idealize.SL Idealize.SL.Sem

variable {F : FTy → Type} [FloatOps F] [Named F]

variable (𝒱 : Variants) (c : Dev nD) (bd : Option 𝒱.V) (i : grid0.Coords)
  (arg1 : Memref sig .tc .vmem S32x32x128 .f32) (harg1 : arg1.IsWhole)
  (arg2 : Memref sig .tc .vmem S64x256x128 .f32) (harg2 : arg2.IsWhole)
  (arg3 : Memref sig .tc .vmem S64x256x128 .f32) (harg3 : arg3.IsWhole)
  (arg4 : Memref sig .tc .vmem S32x128 .f32) (harg4 : arg4.IsWhole)
  (arg5 : Memref sig .tc .vmem S64x256x128 .bf16) (harg5 : arg5.IsWhole)
  (arg6 : Memref sig .tc .vmem S64x256x128 .bf16) (harg6 : arg6.IsWhole)
  (arg7 : Memref sig .tc .vmem S64x32x1 .f32) (harg7 : arg7.IsWhole)
  (arg8 : Memref sig .tc .vmem S64x32x1 .f32) (harg8 : arg8.IsWhole)
  (v208 : Vec F S32x32x128 .f32) (v210 : FVec F S32x32 .f32)

theorem lt0 (y : S64x32x1.Idx) : (y 0).val < 64 := (y 0).isLt
theorem lt1 (y : S64x32x1.Idx) : (y 1).val < 32 := (y 1).isLt
theorem lt2 (y : S64x32x1.Idx) : (y 2).val < 1 := (y 2).isLt

/-- The trip that writes row y₀. -/
def trip1 (y : S64x32x1.Idx) : Fin k0_t1_loop.trips := ⟨(y 0).val, by rw [trips1]; exact lt0 y⟩
def trip2 (y : S64x32x1.Idx) : Fin k0_t2_loop.trips := ⟨(y 0).val, by rw [trips2]; exact lt0 y⟩

/-- Row-block c of a document scratch, as a trip loads it. -/
def doc1 (X : BufTy.Contents (Elt F) arg5.view.ty) (k : Fin k0_t1_loop.trips) : Vec F S1x256x128 .bf16 :=
  arg5.view.readAt (Elt F) (Rect.unit (s := S64x256x128) (k0_off1 k) S1x256x128.size (k0_off1_inb k)).toLoadRect X
def doc2 (X : BufTy.Contents (Elt F) arg6.view.ty) (k : Fin k0_t2_loop.trips) : Vec F S1x256x128 .bf16 :=
  arg6.view.readAt (Elt F) (Rect.unit (s := S64x256x128) (k0_off3 k) S1x256x128.size (k0_off3_inb k)).toLoadRect X

/-- Entry y of the third scratch after loop 1. -/
def row1 (X : BufTy.Contents (Elt F) arg5.view.ty) (y : S64x32x1.Idx) : Elt F .f32 :=
  k0_pay2 v208 v210 (doc1 arg5 X (trip1 y)) (ix3 (0 : Fin 1) (⟨(y 1).val, lt1 y⟩ : Fin 32) (⟨(y 2).val, lt2 y⟩ : Fin 1))
/-- Entry y of the fourth scratch after loop 2. -/
def row2 (X : BufTy.Contents (Elt F) arg6.view.ty) (y : S64x32x1.Idx) : Elt F .f32 :=
  k0_pay3 v208 v210 (doc2 arg6 X (trip2 y)) (ix3 (0 : Fin 1) (⟨(y 1).val, lt1 y⟩ : Fin 32) (⟨(y 2).val, lt2 y⟩ : Fin 1))

/-- Every piece of loop 1 is a box of `row1`. -/
theorem piece1_agrees (X : BufTy.Contents (Elt F) arg5.view.ty) (k : Fin k0_t1_loop.trips)
    (x : (piece1 arg5 v208 v210 X k).1.shape.Idx) :
    (piece1 arg5 v208 v210 X k).2 x = row1 arg5 v208 v210 X ((piece1 arg5 v208 v210 X k).1.emb x) := by
  have e0 : ((piece1 arg5 v208 v210 X k).1.emb x 0 : ℕ) = k.val := by
    show (k0_off2 k) 0 + 1 * (x 0).val = k.val
    have h0 : (x 0).val < 1 := (x 0).isLt
    rw [k0_off2_eq]; show k.val + 1 * (x 0).val = k.val; omega
  have e1 : ((piece1 arg5 v208 v210 X k).1.emb x 1 : ℕ) = (x 1).val := by
    show (k0_off2 k) 1 + 1 * (x 1).val = (x 1).val
    rw [k0_off2_eq]; show 0 + 1 * (x 1).val = (x 1).val; omega
  have e2 : ((piece1 arg5 v208 v210 X k).1.emb x 2 : ℕ) = (x 2).val := by
    show (k0_off2 k) 2 + 1 * (x 2).val = (x 2).val
    rw [k0_off2_eq]; show 0 + 1 * (x 2).val = (x 2).val; omega
  have hk : trip1 ((piece1 arg5 v208 v210 X k).1.emb x) = k := Fin.ext e0
  unfold row1
  rw [hk]
  show k0_pay2 v208 v210 (doc1 arg5 X k) x = _
  congr 1
  funext a
  apply Fin.ext
  have h0 : (x 0).val < 1 := (x 0).isLt
  match a with
  | ⟨0, _⟩ => show (x 0).val = 0; omega
  | ⟨1, _⟩ => exact e1.symm
  | ⟨2, _⟩ => exact e2.symm

/-- The third scratch after loop 1, whatever it held before. -/
theorem canon1 (X : BufTy.Contents (Elt F) arg5.view.ty) (y : S64x32x1.Idx) :
    View.canon (pb_k0_t1 (F := F) 𝒱 c bd i arg1 harg1 arg2 harg2 arg3 harg3 arg4 harg4 arg5 harg5 arg6 harg6 arg7 harg7 arg8 harg8 v208 v210 X k0_t1_loop.trips) y
      = row1 arg5 v208 v210 X y :=
  View.canon_apply_of_pieces (row1 arg5 v208 v210 X) _
    (fun p hp x => by
      obtain ⟨k, rfl⟩ := acc1_mem 𝒱 c bd i arg1 harg1 arg2 harg2 arg3 harg3 arg4 harg4 arg5 harg5 arg6 harg6 arg7 harg7 arg8 harg8 v208 v210 X _ (Nat.le_refl _) p hp
      exact piece1_agrees arg5 v208 v210 X k x)
    y (cover1 𝒱 c bd i arg1 harg1 arg2 harg2 arg3 harg3 arg4 harg4 arg5 harg5 arg6 harg6 arg7 harg7 arg8 harg8 v208 v210 X y)

/-- Every piece of loop 2 is a box of `row2`. -/
theorem piece2_agrees (X : BufTy.Contents (Elt F) arg6.view.ty) (k : Fin k0_t2_loop.trips)
    (x : (piece2 arg6 v208 v210 X k).1.shape.Idx) :
    (piece2 arg6 v208 v210 X k).2 x = row2 arg6 v208 v210 X ((piece2 arg6 v208 v210 X k).1.emb x) := by
  have e0 : ((piece2 arg6 v208 v210 X k).1.emb x 0 : ℕ) = k.val := by
    show (k0_off4 k) 0 + 1 * (x 0).val = k.val
    have h0 : (x 0).val < 1 := (x 0).isLt
    rw [k0_off4_eq]; show k.val + 1 * (x 0).val = k.val; omega
  have e1 : ((piece2 arg6 v208 v210 X k).1.emb x 1 : ℕ) = (x 1).val := by
    show (k0_off4 k) 1 + 1 * (x 1).val = (x 1).val
    rw [k0_off4_eq]; show 0 + 1 * (x 1).val = (x 1).val; omega
  have e2 : ((piece2 arg6 v208 v210 X k).1.emb x 2 : ℕ) = (x 2).val := by
    show (k0_off4 k) 2 + 1 * (x 2).val = (x 2).val
    rw [k0_off4_eq]; show 0 + 1 * (x 2).val = (x 2).val; omega
  have hk : trip2 ((piece2 arg6 v208 v210 X k).1.emb x) = k := Fin.ext e0
  unfold row2
  rw [hk]
  show k0_pay3 v208 v210 (doc2 arg6 X k) x = _
  congr 1
  funext a
  apply Fin.ext
  have h0 : (x 0).val < 1 := (x 0).isLt
  match a with
  | ⟨0, _⟩ => show (x 0).val = 0; omega
  | ⟨1, _⟩ => exact e1.symm
  | ⟨2, _⟩ => exact e2.symm

/-- The fourth scratch after loop 2, whatever it held before. -/
theorem canon2 (X : BufTy.Contents (Elt F) arg6.view.ty) (y : S64x32x1.Idx) :
    View.canon (pb_k0_t2 (F := F) 𝒱 c bd i arg1 harg1 arg2 harg2 arg3 harg3 arg4 harg4 arg5 harg5 arg6 harg6 arg7 harg7 arg8 harg8 v208 v210 X k0_t2_loop.trips) y
      = row2 arg6 v208 v210 X y :=
  View.canon_apply_of_pieces (row2 arg6 v208 v210 X) _
    (fun p hp x => by
      obtain ⟨k, rfl⟩ := acc2_mem 𝒱 c bd i arg1 harg1 arg2 harg2 arg3 harg3 arg4 harg4 arg5 harg5 arg6 harg6 arg7 harg7 arg8 harg8 v208 v210 X _ (Nat.le_refl _) p hp
      exact piece2_agrees arg6 v208 v210 X k x)
    y (cover2 𝒱 c bd i arg1 harg1 arg2 harg2 arg3 harg3 arg4 harg4 arg5 harg5 arg6 harg6 arg7 harg7 arg8 harg8 v208 v210 X y)

end Cert.KernelIdeal.Rows

end
-- ==== Proof.DocsIdeal.lean ====
/-
  The two document scratches after the eight chunk stores, read back as one function.

  Each of the eight stores writes rows [8i, 8i+8) of a scratch with the scaled rows of the same eight documents of
  the argument array; together the eight boxes tile the scratch, so whatever it held before, entry (c, k, d) of it
  is entry d of token row k of document c scaled to unit length.
-/
import proofs.«155816_j17282948399256_1_alg».proof.Proof.Gen.KernelIdeal.Skeleton
import proofs.«155816_j17282948399256_1_alg».proof.Proof.Spec
import proofs.«155816_j17282948399256_1_alg».proof.Proof.PayIdeal
import Idealize.ShloMosaic.Lib.Pipeline.Value
import Idealize.ShloMosaic.Lib.Ring
import Idealize.ShloMosaic.Lib.Tactic
import Idealize.ShloMosaic.Lib.ValueIdx

set_option maxRecDepth 16384

noncomputable section

namespace Cert.KernelIdeal.Docs

open Cert.KernelIdeal Cert.KernelIdeal.Gen Idealize.ShloMosaic Idealize.ShloMosaic.ValueIdx
open Idealize.ShloMosaic.Tactic

/-- Entry (c, k, d) of the documents with every token row scaled to unit length. -/
def scaled (x : FVec Ideal S64x256x128 .f32) : S64x256x128.Idx → EReal := fun y =>
  MaxSim.unitRow (fun e => x (ix3 (⟨(y 0).val, (y 0).isLt⟩ : Fin 64) (⟨(y 1).val, (y 1).isLt⟩ : Fin 256) e)) (⟨(y 2).val, (y 2).isLt⟩ : Fin 128)

/-- At an index whose coordinates are (c, k, d), the scaled documents hold entry d of row k of document c, scaled. -/
theorem scaled_of (x : FVec Ideal S64x256x128 .f32) (y : S64x256x128.Idx) (c : Fin 64) (k : Fin 256) (d : Fin 128)
    (h0 : (y 0).val = c.val) (h1 : (y 1).val = k.val) (h2 : (y 2).val = d.val) :
    scaled x y = MaxSim.unitRow (fun e => x (ix3 c k e)) d := by
  unfold scaled
  have e0 : (⟨(y 0).val, (y 0).isLt⟩ : Fin 64) = c := Fin.ext h0
  have e1 : (⟨(y 1).val, (y 1).isLt⟩ : Fin 256) = k := Fin.ext h1
  have e2 : (⟨(y 2).val, (y 2).isLt⟩ : Fin 128) = d := Fin.ext h2
  rw [e0, e1, e2]

/-- One chunk store agrees with the scaled documents on its box. The box is eight documents from row o; its payload P is
    the row-scaling of whatever chunk it is given (hP), and it is given the load of the same box of the argument array,
    which holds x. At the box's local index (a, k, d) both sides are entry d of row k of document o + a of x, scaled:
    a unit-stride box places local coordinate j of an axis at offset + 1 · j. -/
theorem piece_eq (arg : Memref sig .tc .vmem S64x256x128 .f32) (harg : arg.IsWhole) (x : Vec Ideal S64x256x128 .f32)
    (o : ℕ) (inb : ∀ a, (![o, 0, 0] : Fin 3 → ℕ) a + S8x256x128.size a ≤ S64x256x128.size a)
    (P : Vec Ideal S8x256x128 .f32 → FVec Ideal S8x256x128 .bf16)
    (hP : ∀ (v : FVec Ideal S8x256x128 .f32) (a : Fin 8) (k : Fin 256) (d : Fin 128),
      P v (ix3 a k d) = MaxSim.unitRow (fun e => v (ix3 a k e)) d)
    (z : S8x256x128.Idx) :
    P (View.readAt (Elt Ideal) arg.view (Rect.unit (s := S64x256x128) ![o, 0, 0] S8x256x128.size inb).toLoadRect (harg.unread x)) z
      = scaled x ((Rect.unit (s := S64x256x128) ![o, 0, 0] S8x256x128.size inb).emb z) := by
  obtain ⟨a, k, d, rfl⟩ : ∃ (a : Fin 8) (k : Fin 256) (d : Fin 128), z = ix3 a k d := ⟨z 0, z 1, z 2, eq_ix3 z⟩
  have ho : o + 8 ≤ 64 := inb 0
  rw [hP, scaled_of x _ ⟨o + a.val, by omega⟩ k d
    (by show o + 1 * a.val = o + a.val; omega) (by show 0 + 1 * k.val = k.val; omega) (by show 0 + 1 * d.val = d.val; omega)]
  congr 1
  funext e
  rw [View.readAt_eq_ld, harg.read_unread]
  show x ((Rect.unit (s := S64x256x128) ![o, 0, 0] S8x256x128.size inb).toLoadRect.idx (ix3 a k e)) = x (ix3 ⟨o + a.val, by omega⟩ k e)
  congr 1
  funext ax
  match ax with
  | ⟨0, _⟩ => exact Fin.ext (by show o + 1 * a.val = o + a.val; omega)
  | ⟨1, _⟩ => exact Fin.ext (by show 0 + 1 * k.val = k.val; omega)
  | ⟨2, _⟩ => exact Fin.ext (by show 0 + 1 * e.val = e.val; omega)

/-- The positive documents' scratch. -/
theorem canon_pos (arg2 : Memref sig .tc .vmem S64x256x128 .f32) (harg2 : arg2.IsWhole) (x1 : Vec Ideal S64x256x128 .f32) (y : S64x256x128.Idx) :
    View.canon (Val := Elt Ideal) (e := .bf16)
      [⟨Rect.unit (s := S64x256x128) ![56, 0, 0] S8x256x128.size inb_S64x256x128_S8x256x128_56_0_0, k0_pay23 (View.readAt (Elt Ideal) arg2.view (Rect.unit (s := S64x256x128) ![56, 0, 0] S8x256x128.size inb_S64x256x128_S8x256x128_56_0_0).toLoadRect (harg2.unread x1))⟩,
       ⟨Rect.unit (s := S64x256x128) ![48, 0, 0] S8x256x128.size inb_S64x256x128_S8x256x128_48_0_0, k0_pay20 (View.readAt (Elt Ideal) arg2.view (Rect.unit (s := S64x256x128) ![48, 0, 0] S8x256x128.size inb_S64x256x128_S8x256x128_48_0_0).toLoadRect (harg2.unread x1))⟩,
       ⟨Rect.unit (s := S64x256x128) ![40, 0, 0] S8x256x128.size inb_S64x256x128_S8x256x128_40_0_0, k0_pay18 (k0_pay17 (View.readAt (Elt Ideal) arg2.view (Rect.unit (s := S64x256x128) ![40, 0, 0] S8x256x128.size inb_S64x256x128_S8x256x128_40_0_0).toLoadRect (harg2.unread x1)))⟩,
       ⟨Rect.unit (s := S64x256x128) ![32, 0, 0] S8x256x128.size inb_S64x256x128_S8x256x128_32_0_0, k0_pay15 (View.readAt (Elt Ideal) arg2.view (Rect.unit (s := S64x256x128) ![32, 0, 0] S8x256x128.size inb_S64x256x128_S8x256x128_32_0_0).toLoadRect (harg2.unread x1))⟩,
       ⟨Rect.unit (s := S64x256x128) ![24, 0, 0] S8x256x128.size inb_S64x256x128_S8x256x128_24_0_0, k0_pay13 (View.readAt (Elt Ideal) arg2.view (Rect.unit (s := S64x256x128) ![24, 0, 0] S8x256x128.size inb_S64x256x128_S8x256x128_24_0_0).toLoadRect (harg2.unread x1))⟩,
       ⟨Rect.unit (s := S64x256x128) ![16, 0, 0] S8x256x128.size inb_S64x256x128_S8x256x128_16_0_0, k0_pay10 (View.readAt (Elt Ideal) arg2.view (Rect.unit (s := S64x256x128) ![16, 0, 0] S8x256x128.size inb_S64x256x128_S8x256x128_16_0_0).toLoadRect (harg2.unread x1))⟩,
       ⟨Rect.unit (s := S64x256x128) ![8, 0, 0] S8x256x128.size inb_S64x256x128_S8x256x128_8_0_0, k0_pay8 (k0_pay7 (View.readAt (Elt Ideal) arg2.view (Rect.unit (s := S64x256x128) ![8, 0, 0] S8x256x128.size inb_S64x256x128_S8x256x128_8_0_0).toLoadRect (harg2.unread x1)))⟩,
       ⟨Rect.unit (s := S64x256x128) ![0, 0, 0] S8x256x128.size inb_S64x256x128_S8x256x128_0_0_0, k0_pay5 (View.readAt (Elt Ideal) arg2.view (Rect.unit (s := S64x256x128) ![0, 0, 0] S8x256x128.size inb_S64x256x128_S8x256x128_0_0_0).toLoadRect (harg2.unread x1))⟩] y
      = scaled x1 y := by
  refine View.canon_apply_of_pieces (Val := Elt Ideal) (e := .bf16) (scaled x1) _ ?_ y
    (View.cover_of_tiledL (s := S64x256x128) _ S8x256x128.size (by sl_kernel_rfl) y)
  intro p hp
  simp only [List.mem_cons, List.not_mem_nil, or_false] at hp
  rcases hp with rfl | rfl | rfl | rfl | rfl | rfl | rfl | rfl
  · exact fun z => piece_eq arg2 harg2 x1 56 _ k0_pay23 Pay.chunk23 z
  · exact fun z => piece_eq arg2 harg2 x1 48 _ k0_pay20 Pay.chunk20 z
  · exact fun z => piece_eq arg2 harg2 x1 40 _ (fun v => k0_pay18 (k0_pay17 v)) Pay.chunk18 z
  · exact fun z => piece_eq arg2 harg2 x1 32 _ k0_pay15 Pay.chunk15 z
  · exact fun z => piece_eq arg2 harg2 x1 24 _ k0_pay13 Pay.chunk13 z
  · exact fun z => piece_eq arg2 harg2 x1 16 _ k0_pay10 Pay.chunk10 z
  · exact fun z => piece_eq arg2 harg2 x1 8 _ (fun v => k0_pay8 (k0_pay7 v)) Pay.chunk8 z
  · exact fun z => piece_eq arg2 harg2 x1 0 _ k0_pay5 Pay.chunk5 z

/-- The negative documents' scratch. -/
theorem canon_neg (arg3 : Memref sig .tc .vmem S64x256x128 .f32) (harg3 : arg3.IsWhole) (x2 : Vec Ideal S64x256x128 .f32) (y : S64x256x128.Idx) :
    View.canon (Val := Elt Ideal) (e := .bf16)
      [⟨Rect.unit (s := S64x256x128) ![56, 0, 0] S8x256x128.size inb_S64x256x128_S8x256x128_56_0_0, k0_pay24 (View.readAt (Elt Ideal) arg3.view (Rect.unit (s := S64x256x128) ![56, 0, 0] S8x256x128.size inb_S64x256x128_S8x256x128_56_0_0).toLoadRect (harg3.unread x2))⟩,
       ⟨Rect.unit (s := S64x256x128) ![48, 0, 0] S8x256x128.size inb_S64x256x128_S8x256x128_48_0_0, k0_pay22 (View.readAt (Elt Ideal) arg3.view (Rect.unit (s := S64x256x128) ![48, 0, 0] S8x256x128.size inb_S64x256x128_S8x256x128_48_0_0).toLoadRect (harg3.unread x2)) (k0_pay21 (View.readAt (Elt Ideal) arg3.view (Rect.unit (s := S64x256x128) ![48, 0, 0] S8x256x128.size inb_S64x256x128_S8x256x128_48_0_0).toLoadRect (harg3.unread x2)))⟩,
       ⟨Rect.unit (s := S64x256x128) ![40, 0, 0] S8x256x128.size inb_S64x256x128_S8x256x128_40_0_0, k0_pay19 (View.readAt (Elt Ideal) arg3.view (Rect.unit (s := S64x256x128) ![40, 0, 0] S8x256x128.size inb_S64x256x128_S8x256x128_40_0_0).toLoadRect (harg3.unread x2))⟩,
       ⟨Rect.unit (s := S64x256x128) ![32, 0, 0] S8x256x128.size inb_S64x256x128_S8x256x128_32_0_0, k0_pay16 (View.readAt (Elt Ideal) arg3.view (Rect.unit (s := S64x256x128) ![32, 0, 0] S8x256x128.size inb_S64x256x128_S8x256x128_32_0_0).toLoadRect (harg3.unread x2))⟩,
       ⟨Rect.unit (s := S64x256x128) ![24, 0, 0] S8x256x128.size inb_S64x256x128_S8x256x128_24_0_0, k0_pay14 (View.readAt (Elt Ideal) arg3.view (Rect.unit (s := S64x256x128) ![24, 0, 0] S8x256x128.size inb_S64x256x128_S8x256x128_24_0_0).toLoadRect (harg3.unread x2))⟩,
       ⟨Rect.unit (s := S64x256x128) ![16, 0, 0] S8x256x128.size inb_S64x256x128_S8x256x128_16_0_0, k0_pay12 (View.readAt (Elt Ideal) arg3.view (Rect.unit (s := S64x256x128) ![16, 0, 0] S8x256x128.size inb_S64x256x128_S8x256x128_16_0_0).toLoadRect (harg3.unread x2)) (k0_pay11 (View.readAt (Elt Ideal) arg3.view (Rect.unit (s := S64x256x128) ![16, 0, 0] S8x256x128.size inb_S64x256x128_S8x256x128_16_0_0).toLoadRect (harg3.unread x2)))⟩,
       ⟨Rect.unit (s := S64x256x128) ![8, 0, 0] S8x256x128.size inb_S64x256x128_S8x256x128_8_0_0, k0_pay9 (View.readAt (Elt Ideal) arg3.view (Rect.unit (s := S64x256x128) ![8, 0, 0] S8x256x128.size inb_S64x256x128_S8x256x128_8_0_0).toLoadRect (harg3.unread x2))⟩,
       ⟨Rect.unit (s := S64x256x128) ![0, 0, 0] S8x256x128.size inb_S64x256x128_S8x256x128_0_0_0, k0_pay6 (View.readAt (Elt Ideal) arg3.view (Rect.unit (s := S64x256x128) ![0, 0, 0] S8x256x128.size inb_S64x256x128_S8x256x128_0_0_0).toLoadRect (harg3.unread x2))⟩] y
      = scaled x2 y := by
  refine View.canon_apply_of_pieces (Val := Elt Ideal) (e := .bf16) (scaled x2) _ ?_ y
    (View.cover_of_tiledL (s := S64x256x128) _ S8x256x128.size (by sl_kernel_rfl) y)
  intro p hp
  simp only [List.mem_cons, List.not_mem_nil, or_false] at hp
  rcases hp with rfl | rfl | rfl | rfl | rfl | rfl | rfl | rfl
  · exact fun z => piece_eq arg3 harg3 x2 56 _ k0_pay24 Pay.chunk24 z
  · exact fun z => piece_eq arg3 harg3 x2 48 _ (fun v => k0_pay22 v (k0_pay21 v)) Pay.chunk22 z
  · exact fun z => piece_eq arg3 harg3 x2 40 _ k0_pay19 Pay.chunk19 z
  · exact fun z => piece_eq arg3 harg3 x2 32 _ k0_pay16 Pay.chunk16 z
  · exact fun z => piece_eq arg3 harg3 x2 24 _ k0_pay14 Pay.chunk14 z
  · exact fun z => piece_eq arg3 harg3 x2 16 _ (fun v => k0_pay12 v (k0_pay11 v)) Pay.chunk12 z
  · exact fun z => piece_eq arg3 harg3 x2 8 _ k0_pay9 Pay.chunk9 z
  · exact fun z => piece_eq arg3 harg3 x2 0 _ k0_pay6 Pay.chunk6 z

end Cert.KernelIdeal.Docs

end
-- ==== Proof.OutIdeal.lean ====
/-
  The kernel's score table.

  At grid point t the body gets the query tile of 32 queries [32t, 32t+32) and the whole positive and negative
  document arrays, and leaves in its output block, at (b, c), the score of tile query b against column c
  (`out_apply`: columns below 64 are positive documents, the rest negative ones). The two points' blocks are rows
  [0, 32) and [32, 64) of the [64, 128] result array, so after the region that array is the score table of the
  three argument arrays (`final3`).
-/
import proofs.«155816_j17282948399256_1_alg».proof.Proof.FrameIdeal
import proofs.«155816_j17282948399256_1_alg».proof.Proof.Spec
import proofs.«155816_j17282948399256_1_alg».proof.Proof.PayIdeal
import proofs.«155816_j17282948399256_1_alg».proof.Proof.RowsIdeal
import proofs.«155816_j17282948399256_1_alg».proof.Proof.DocsIdeal
import Idealize.ShloMosaic.Lib.Pipeline.Value
import Idealize.ShloMosaic.Lib.ValueIdx
import Idealize.ShloMosaic.Lib.Tactic

set_option maxRecDepth 16384

noncomputable section

open scoped BigOperators

namespace Cert.KernelIdeal.Out

open Cert.KernelIdeal Cert.KernelIdeal.Gen Cert.KernelIdeal.GenP
open Idealize.ShloMosaic Idealize.ShloMosaic.TcCoe Idealize.ShloMosaic.ValueIdx Idealize.ShloMosaic.Tactic Idealize.SL.Sem
open Idealize.ShloMosaic.Pipeline (Dat)

/-- MaxSim of ONE query, given by its 32 token rows, against document c: the mean over the tokens of the best dot
    product with the document's scaled token rows. -/
def simOf (qr : Fin 32 → Fin 128 → EReal) (x : MaxSim.DS.Idx → EReal) (c : Fin 64) : EReal :=
  Ideal.div (∑ t : Fin 32, (Finset.univ : Finset (Fin 256)).fold max (Ideal.ofBits .f32 0xFF800000#32)
      (fun k => ∑ d : Fin 128, MaxSim.unitRow (qr t) d * MaxSim.dUnit x c k d))
    (Ideal.ofBits .f32 0x42000000#32)

/-- The specification's MaxSim is that of the query's rows. -/
theorem maxSim_eq (q : MaxSim.QS.Idx → EReal) (x : MaxSim.DS.Idx → EReal) (b c : Fin 64) :
    MaxSim.maxSim q x b c = simOf (fun t e => q (ix3 b t e)) x c := rfl

/-- Entry (b, c) of the block a grid point leaves, from the point's query tile and the two document arrays. -/
def tileScore (x0 : Vec Ideal S32x32x128 .f32) (x1 x2 : Vec Ideal S64x256x128 .f32) (b : Fin 32) (cc : Fin 128) : EReal :=
  (if h : cc.val < 64 then simOf (fun t e => x0 (ix3 b t e)) x1 ⟨cc.val, h⟩
    else simOf (fun t e => x0 (ix3 b t e)) x2 ⟨cc.val - 64, by omega⟩) * MaxSim.invTemp

/-- The origin of a rank-2 and of a rank-3 box. -/
theorem hz2 : (![0, 0] : Fin 2 → Nat) = fun _ => 0 := funext fun a => by fin_cases a <;> rfl
theorem hz3 : (![0, 0, 0] : Fin 3 → Nat) = fun _ => 0 := funext fun a => by fin_cases a <;> rfl

/-- The query tile as the body loads it is the tile. -/
theorem load_q (arg1 : Memref sig .tc .vmem S32x32x128 .f32) (harg1 : arg1.IsWhole) (x0 : Vec Ideal S32x32x128 .f32) :
    View.readAt (Elt Ideal) arg1.view (Rect.unit (s := S32x32x128) ![0, 0, 0] S32x32x128.size inb_S32x32x128_S32x32x128_0_0_0).toLoadRect (harg1.unread x0) = x0 := by
  simp only [View.readAt_eq_ld, harg1.read_unread, View.ld_unit_zero (S := S32x32x128) hz3]

/-- A trip's document rows, read from a scratch whose stores are known to leave the function G. -/
theorem doc1_of_canon (arg5 : Memref sig .tc .vmem S64x256x128 .bf16) (L : List (View.Piece (Elt Ideal) S64x256x128 .bf16))
    (G : S64x256x128.Idx → EReal) (hG : ∀ y, View.canon L y = G y) (kk : Fin k0_t1_loop.trips) (j : S1x256x128.Idx) :
    Rows.doc1 (F := Ideal) arg5 (arg5.view.writes (Elt Ideal) arg5.view.junk L) kk j
      = G ((Rect.unit (s := S64x256x128) (k0_off1 kk) S1x256x128.size (k0_off1_inb kk)).toLoadRect.idx j) := by
  unfold Rows.doc1
  rw [View.readAt_writes_junk_eq_canon]
  exact hG _

theorem doc2_of_canon (arg6 : Memref sig .tc .vmem S64x256x128 .bf16) (L : List (View.Piece (Elt Ideal) S64x256x128 .bf16))
    (G : S64x256x128.Idx → EReal) (hG : ∀ y, View.canon L y = G y) (kk : Fin k0_t2_loop.trips) (j : S1x256x128.Idx) :
    Rows.doc2 (F := Ideal) arg6 (arg6.view.writes (Elt Ideal) arg6.view.junk L) kk j
      = G ((Rect.unit (s := S64x256x128) (k0_off3 kk) S1x256x128.size (k0_off3_inb kk)).toLoadRect.idx j) := by
  unfold Rows.doc2
  rw [View.readAt_writes_junk_eq_canon]
  exact hG _

/-- Where a trip's document box places its local index. -/
theorem off1_val (kk : Fin k0_t1_loop.trips) (j : S1x256x128.Idx) (a : Fin 3) :
    (((Rect.unit (s := S64x256x128) (k0_off1 kk) S1x256x128.size (k0_off1_inb kk)).toLoadRect.idx j) a).val = ![kk.val, 0, 0] a + (j a).val := by
  show (k0_off1 kk) a + 1 * (j a).val = _
  rw [k0_off1_eq]; omega
theorem off3_val (kk : Fin k0_t2_loop.trips) (j : S1x256x128.Idx) (a : Fin 3) :
    (((Rect.unit (s := S64x256x128) (k0_off3 kk) S1x256x128.size (k0_off3_inb kk)).toLoadRect.idx j) a).val = ![kk.val, 0, 0] a + (j a).val := by
  show (k0_off3 kk) a + 1 * (j a).val = _
  rw [k0_off3_eq]; omega

set_option maxHeartbeats 1000000 in
/-- What the body leaves in its output block: at (b, c) the score of tile query b against column c. The block is one
    store of the two result scratches transposed, laid side by side and multiplied by the named reciprocal; a result
    scratch's row is its trip's means (Proof/RowsIdeal.lean) of the scaled query tile against the scaled rows of one
    document, which the document scratch holds (Proof/DocsIdeal.lean). -/
theorem out_apply (c : Dev nD) (i : grid0.Coords) (arg1 : Memref sig .tc .vmem S32x32x128 .f32) (harg1 : arg1.IsWhole) (arg2 : Memref sig .tc .vmem S64x256x128 .f32) (harg2 : arg2.IsWhole) (arg3 : Memref sig .tc .vmem S64x256x128 .f32) (harg3 : arg3.IsWhole) (arg4 : Memref sig .tc .vmem S32x128 .f32) (harg4 : arg4.IsWhole) (arg5 : Memref sig .tc .vmem S64x256x128 .bf16) (harg5 : arg5.IsWhole) (arg6 : Memref sig .tc .vmem S64x256x128 .bf16) (harg6 : arg6.IsWhole) (arg7 : Memref sig .tc .vmem S64x32x1 .f32) (harg7 : arg7.IsWhole) (arg8 : Memref sig .tc .vmem S64x32x1 .f32) (harg8 : arg8.IsWhole)
    (x0 : Vec Ideal S32x32x128 .f32) (x1 x2 : Vec Ideal S64x256x128 .f32) (b : Fin 32) (cc : Fin 128) :
    out0_A_3 (F := Ideal) c i arg1 harg1 arg2 harg2 arg3 harg3 arg4 harg4 arg5 harg5 arg6 harg6 arg7 harg7 arg8 harg8 x0 x1 x2 (ix2 b cc) = tileScore x0 x1 x2 b cc := by
  unfold out0_A_3
  rw [View.read_writes_eq_canon _ _ _ (cover0_A_3 c i arg1 harg1 arg2 harg2 arg3 harg3 arg4 harg4 arg5 harg5 arg6 harg6 arg7 harg7 arg8 harg8 x0 x1 x2)]
  unfold kernelRun0_A
  dsimp only
  sl_unfold_words
  rw [View.canon_unit_zero hz2]
  rw [Cert.KernelIdeal.Pay.pay4_apply]
  unfold tileScore
  congr 1
  by_cases h : cc.val < 64
  · rw [dif_pos h, dif_pos h]
    rw [View.readCov_eq_canon']
    refine (Rows.canon1 (F := Ideal) Variants.none c none i arg1 harg1 arg2 harg2 arg3 harg3 arg4 harg4 arg5 harg5 arg6 harg6 arg7 harg7 arg8 harg8 _ _ _ _).trans ?_
    unfold Rows.row1
    have hy1 : ∀ p, (⟨(((Rect.unit (s := S64x32x1) ![0, 0, 0] ![64, 32, 1] inb_S64x32x1_S64x32x1_0_0_0).toLoadRect.idx (ix3 (⟨cc.val, h⟩ : Fin 64) b (0 : Fin 1))) 1).val, p⟩ : Fin 32) = b :=
      fun p => Fin.ext (by show 0 + 1 * b.val = b.val; omega)
    have hy2 : ∀ p, (⟨(((Rect.unit (s := S64x32x1) ![0, 0, 0] ![64, 32, 1] inb_S64x32x1_S64x32x1_0_0_0).toLoadRect.idx (ix3 (⟨cc.val, h⟩ : Fin 64) b (0 : Fin 1))) 2).val, p⟩ : Fin 1) = 0 :=
      fun p => Fin.ext (by show 0 + 1 * 0 = 0; omega)
    rw [hy1, hy2, Cert.KernelIdeal.Pay.pay2_apply]
    unfold simOf
    congr 1
    refine Finset.sum_congr rfl fun t _ => ?_
    congr 1
    funext k
    refine Finset.sum_congr rfl fun d _ => ?_
    rw [Cert.KernelIdeal.Pay.pay1_apply]
    congr 1
    · congr 1
      funext e
      exact congrFun (load_q arg1 harg1 x0) (ix3 b t e)
    · refine (doc1_of_canon arg5 _ (Cert.KernelIdeal.Docs.scaled x1) (Cert.KernelIdeal.Docs.canon_pos arg2 harg2 x1) _ (ix3 (0 : Fin 1) k d)).trans ?_
      refine Cert.KernelIdeal.Docs.scaled_of x1 _ (⟨cc.val, h⟩ : Fin 64) k d ?_ ?_ ?_
      · rw [off1_val]
        show (0 + 1 * (cc.val)) + 0 = cc.val
        omega
      · rw [off1_val]
        show 0 + k.val = k.val
        omega
      · rw [off1_val]
        show 0 + d.val = d.val
        omega
  · rw [dif_neg h, dif_neg h]
    have hc : cc.val - 64 < 64 := by omega
    rw [View.readCov_eq_canon']
    refine (Rows.canon2 (F := Ideal) Variants.none c none i arg1 harg1 arg2 harg2 arg3 harg3 arg4 harg4 arg5 harg5 arg6 harg6 arg7 harg7 arg8 harg8 _ _ _ _).trans ?_
    unfold Rows.row2
    have hy1 : ∀ p, (⟨(((Rect.unit (s := S64x32x1) ![0, 0, 0] ![64, 32, 1] inb_S64x32x1_S64x32x1_0_0_0).toLoadRect.idx (ix3 (⟨cc.val - 64, hc⟩ : Fin 64) b (0 : Fin 1))) 1).val, p⟩ : Fin 32) = b :=
      fun p => Fin.ext (by show 0 + 1 * b.val = b.val; omega)
    have hy2 : ∀ p, (⟨(((Rect.unit (s := S64x32x1) ![0, 0, 0] ![64, 32, 1] inb_S64x32x1_S64x32x1_0_0_0).toLoadRect.idx (ix3 (⟨cc.val - 64, hc⟩ : Fin 64) b (0 : Fin 1))) 2).val, p⟩ : Fin 1) = 0 :=
      fun p => Fin.ext (by show 0 + 1 * 0 = 0; omega)
    rw [hy1, hy2, Cert.KernelIdeal.Pay.pay3_apply]
    unfold simOf
    congr 1
    refine Finset.sum_congr rfl fun t _ => ?_
    congr 1
    funext k
    refine Finset.sum_congr rfl fun d _ => ?_
    rw [Cert.KernelIdeal.Pay.pay1_apply]
    congr 1
    · congr 1
      funext e
      exact congrFun (load_q arg1 harg1 x0) (ix3 b t e)
    · refine (doc2_of_canon arg6 _ (Cert.KernelIdeal.Docs.scaled x2) (Cert.KernelIdeal.Docs.canon_neg arg3 harg3 x2) _ (ix3 (0 : Fin 1) k d)).trans ?_
      refine Cert.KernelIdeal.Docs.scaled_of x2 _ (⟨cc.val - 64, hc⟩ : Fin 64) k d ?_ ?_ ?_
      · rw [off3_val]
        show (0 + 1 * (cc.val - 64)) + 0 = cc.val - 64
        omega
      · rw [off3_val]
        show 0 + k.val = k.val
        omega
      · rw [off3_val]
        show 0 + d.val = d.val
        omega

/-! ## From the two blocks to the array -/

variable (m : (ℓ : Loc nD τ sig) → Buf (Elt Ideal) ℓ) (ρ : Dev nD → PrngReg)

-- BLOCKS-TO-ARRAY PART (below this line)

/-- The printed index maps over the two grid points: the query window moves one tile of 32 queries per point, the two
    document windows stay on the whole arrays, and the result window moves one block of 32 rows per point. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 3) = 0 ∧ win0_2.index t (1 : Fin 3) = 0 ∧ win0_2.index t (2 : Fin 3) = 0
    ∧ win0_3.index t (0 : Fin 2) = t.val ∧ win0_3.index t (1 : Fin 2) = 0 :=
  (by decide +kernel : ∀ t : Fin grid0.N, _)

/-- A grid point is 0 or 1. -/
theorem point_lt (t : Fin cfg0.N) : t.val < 2 := by
  have h : t.val < cfg0.N := t.isLt
  have hN : cfg0.N = 2 := N_0
  omega

/-- The query tile of point t: entry (b, q, e) is the queries' entry (32 t + b, q, e). -/
theorem qblk_apply (c : Dev nD) (t : Fin cfg0.N) (b q : Fin 32) (e : Fin 128) :
    (iblk (F := Ideal) m c 0 t : Vec Ideal S32x32x128 .f32) (ix3 b q e)
      = m ((c : Thread nD τ).loc main_arg0) (ix3 (⟨32 * t.val + b.val, by have := point_lt t; omega⟩ : Fin 64) q e) := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t 0 * 32 + 1 * b.val = 32 * t.val + b.val; rw [e0]; omega
  | ⟨1, _⟩ => show win0_0.index t 1 * 32 + 1 * q.val = q.val; rw [e1]; omega
  | ⟨2, _⟩ => show win0_0.index t 2 * 128 + 1 * e.val = e.val; rw [e2]; omega

/-- The positive documents' window is the whole array at every point. -/
theorem posblk_eq (c : Dev nD) (t : Fin cfg0.N) :
    (iblk (F := Ideal) m c 1 t : Vec Ideal S64x256x128 .f32) = m ((c : Thread nD τ).loc main_arg1) := by
  obtain ⟨-, -, -, e0, e1, e2, -⟩ := idx_facts t
  funext j
  unfold iblk
  rw [View.read_apply]
  show V m c main_arg1 _ = m (c.tc.loc main_arg1) _
  rw [V_main_arg1]
  congr 1
  funext a
  apply Fin.ext
  match a with
  | ⟨0, _⟩ => show win0_1.index t 0 * 64 + 1 * (j 0).val = (j 0).val; rw [e0]; omega
  | ⟨1, _⟩ => show win0_1.index t 1 * 256 + 1 * (j 1).val = (j 1).val; rw [e1]; omega
  | ⟨2, _⟩ => show win0_1.index t 2 * 128 + 1 * (j 2).val = (j 2).val; rw [e2]; omega

/-- The negative documents' window is the whole array at every point. -/
theorem negblk_eq (c : Dev nD) (t : Fin cfg0.N) :
    (iblk (F := Ideal) m c 2 t : Vec Ideal S64x256x128 .f32) = m ((c : Thread nD τ).loc main_arg2) := by
  obtain ⟨-, -, -, -, -, -, e0, e1, e2, -⟩ := idx_facts t
  funext j
  unfold iblk
  rw [View.read_apply]
  show V m c main_arg2 _ = m (c.tc.loc main_arg2) _
  rw [V_main_arg2]
  congr 1
  funext a
  apply Fin.ext
  match a with
  | ⟨0, _⟩ => show win0_2.index t 0 * 64 + 1 * (j 0).val = (j 0).val; rw [e0]; omega
  | ⟨1, _⟩ => show win0_2.index t 1 * 256 + 1 * (j 1).val = (j 1).val; rw [e1]; omega
  | ⟨2, _⟩ => show win0_2.index t 2 * 128 + 1 * (j 2).val = (j 2).val; rw [e2]; omega

/-- The score table of the three argument arrays as core c finds them. -/
abbrev table (c : Dev nD) : MaxSim.TS.Idx → EReal :=
  MaxSim.scores (m ((c : Thread nD τ).loc main_arg0)) (m ((c : Thread nD τ).loc main_arg1)) (m ((c : Thread nD τ).loc main_arg2))

/-- What point t leaves at (b, cc) of its block is the table's entry at row 32 t + b, column cc. -/
theorem block_apply (c : Dev nD) (t : Fin cfg0.N) (b : Fin 32) (cc : Fin 128) :
    (outsAt0 (F := Ideal) m c t : Vec Ideal S32x128 .f32) (ix2 b cc)
      = table m c (ix2 (⟨32 * t.val + b.val, by have := point_lt t; omega⟩ : Fin 64) cc) := by
  unfold outsAt0
  rw [out_apply, posblk_eq, negblk_eq]
  unfold tileScore table
  rw [MaxSim.scores_ix2]
  unfold MaxSim.scoreAt
  simp only [maxSim_eq]
  have hq : (fun (q : Fin 32) (e : Fin 128) => (iblk (F := Ideal) m c 0 t : Vec Ideal S32x32x128 .f32) (ix3 b q e))
      = fun (q : Fin 32) (e : Fin 128) => m ((c : Thread nD τ).loc main_arg0) (ix3 (⟨32 * t.val + b.val, by have := point_lt t; omega⟩ : Fin 64) q e) :=
    funext fun q => funext fun e => qblk_apply m c t b q e
  rw [hq]

/-- What point t writes back is block t of the score table: rows [32 t, 32 t + 32), all 128 columns. -/
theorem flushed_eq (c : Dev nD) (t : Fin cfg0.N) :
    (dats (F := Ideal) m 0 c).flushed 3 t = ((cfg0.win 3).blk t).view.read (Elt Ideal) (table m c) := by
  show (cfg0.win 3).cut (grid0.coords t) ((dats m 0 c).after 3 t) = _
  rw [after0_3]
  obtain ⟨-, -, -, -, -, -, -, -, -, e0, e1⟩ := idx_facts t
  funext j
  obtain ⟨b, cc, rfl⟩ : ∃ (b : Fin 32) (cc : Fin 128), j = ix2 b cc := ⟨j 0, j 1, eq_ix2 j⟩
  rw [View.read_apply]
  show (outsAt0 (F := Ideal) m c t : Vec Ideal S32x128 .f32) (ix2 b cc) = table m c (((cfg0.win 3).blk t).view.emb (ix2 b cc))
  rw [block_apply]
  congr 1
  funext a
  apply Fin.ext
  match a with
  | ⟨0, _⟩ => show 32 * t.val + b.val = win0_3.index t 0 * 32 + 1 * b.val; rw [e0]; omega
  | ⟨1, _⟩ => show cc.val = win0_3.index t 1 * 128 + 1 * cc.val; rw [e1]; omega

/-- An index of the result array is in point t's block iff each coordinate is in the block's range on its axis. -/
theorem mem_blk (t : Fin cfg0.N) (i : S64x128.Idx) :
    i ∈ ((cfg0.win 3).blk t).view.set ↔ ∀ a : Fin 2, win0_3.index t a * S32x128.size a ≤ (i a).val ∧ (i a).val < win0_3.index t a * S32x128.size a + S32x128.size a := by
  show i ∈ ((View.whole main_v0).slice (win0_3.rect t)).set ↔ _
  rw [View.set_slice_whole, Rect.mem_set_unit]
  exact Iff.rfl

/-- Every row of the result array is in the block of the point that holds it: row r in point r / 32's. -/
theorem cover (i : S64x128.Idx) : ∃ t : Fin cfg0.N, (cfg0.win 3).flush t = true ∧ i ∈ ((cfg0.win 3).blk t).view.set := by
  have hi0 : (i 0).val < 64 := (i 0).isLt
  have hi1 : (i 1).val < 128 := (i 1).isLt
  have hN : cfg0.N = 2 := N_0
  refine ⟨⟨(i 0).val / 32, by omega⟩, flush0_3 _, ?_⟩
  rw [mem_blk]
  obtain ⟨-, -, -, -, -, -, -, -, -, e0, e1⟩ := idx_facts ⟨(i 0).val / 32, by omega⟩
  intro a
  match a with
  | ⟨0, _⟩ =>
    show win0_3.index ⟨(i 0).val / 32, _⟩ (0 : Fin 2) * 32 ≤ (i 0).val ∧ (i 0).val < win0_3.index ⟨(i 0).val / 32, _⟩ (0 : Fin 2) * 32 + 32
    rw [e0]
    show (i 0).val / 32 * 32 ≤ (i 0).val ∧ (i 0).val < (i 0).val / 32 * 32 + 32
    omega
  | ⟨1, _⟩ =>
    show win0_3.index ⟨(i 0).val / 32, _⟩ (1 : Fin 2) * 128 ≤ (i 1).val ∧ (i 1).val < win0_3.index ⟨(i 0).val / 32, _⟩ (1 : Fin 2) * 128 + 128
    rw [e1]
    omega

/-- The result array after the region is the score table of the three argument arrays. -/
theorem final3 (c : Dev nD) :
    (dats (F := Ideal) m 0 c).arrAt 3 cfg0.N
      = MaxSim.scores (m ((c : Thread nD τ).loc main_arg0)) (m ((c : Thread nD τ).loc main_arg1)) (m ((c : Thread nD τ).loc main_arg2)) :=
  (dats (F := Ideal) m 0 c).arrAt_eq_of_cover 3 (table m c) (fun t _ => flushed_eq m c t) (cover)

end Cert.KernelIdeal.Out

end
-- ==== Proof.Loss.lean ====
/-
  What both programs do with the score table: the loss.

  With labels l, entry (i, j) of the left 64 x 64 half of the table is a FALSE NEGATIVE when l_i = l_j and i ≠ j;
  those entries are overwritten by the fill −10⁹ (`masked`). Each row of the table then goes through log-softmax
  (`logSoftmax`: subtract the row maximum, subtract the log of the row's sum of exponentials), and the loss is
  minus the mean of the 64 diagonal entries (`lossOf`). Both programs apply exactly these operations, in this
  order, to their score table and the same labels, so the comparison never opens them: it is enough that the two
  tables are equal.
-/
import proofs.«155816_j17282948399256_1_alg».proof.ReferenceIdeal

noncomputable section

namespace Cert.ReferenceIdeal.Loss

open Cert.ReferenceIdeal Idealize.ShloMosaic

variable {F : FTy → Type} [FloatOps F] [Facts]

open Facts₀ Facts

/-- Entry (i, j) is a false negative: the labels agree and it is off the diagonal. -/
def falseNeg (lab : (⟨S64, .i32⟩ : BufTy).Contents (Elt F)) : (⟨S64x64, .i1⟩ : BufTy).Contents (Elt F) :=
  andi
    (cmpi .eq
      (broadcastInDim S64x64 ![0, 1] bcast_S64x1_S64x64_0_1 (broadcastInDim S64x1 ![0] bcast_S64_S64x1_0 lab))
      (broadcastInDim S64x64 ![0, 1] bcast_S1x64_S64x64_0_1 (broadcastInDim S1x64 ![1] bcast_S64_S1x64_1 lab)))
    (noti
      (cmpi .eq
        (addi (iotaInDim S64x64 32 0) (broadcastInDim S64x64 ![] bcast_S_S64x64 (constantI S_ 32 0#32)))
        (iotaInDim S64x64 32 1)))

/-- The table with the false negatives of its left half overwritten by the fill. -/
def masked (s : (⟨S64x128, .f32⟩ : BufTy).Contents (Elt F)) (lab : (⟨S64, .i32⟩ : BufTy).Contents (Elt F)) :
    (⟨S64x128, .f32⟩ : BufTy).Contents (Elt F) :=
  Host.scatter scatter_S64x128_S1_S64x64_01_n_1_0 (fun _ b => b) s
    (broadcastInDim S1 ![] bcast_S_S1 (constantI S_ 32 0#32))
    (select (falseNeg (F := F) lab)
      (broadcastInDim S64x64 ![] bcast_S_S64x64 (id (constant (F := F) S_ .f32 0xCE6E6B28#32)))
      (extractStridedSlice S64x64 ![0, 0] s slices_S64x128_S64x64_0_0))

/-- A row minus its maximum. -/
def shifted (x : (⟨S64x128, .f32⟩ : BufTy).Contents (Elt F)) : (⟨S64x128, .f32⟩ : BufTy).Contents (Elt F) :=
  subf x
    (broadcastInDim S64x128 ![0, 1] bcast_S64x1_S64x128_0_1
      (broadcastInDim S64x1 ![0] bcast_S64_S64x1_0
        (maximumf (broadcastInDim S64 ![] bcast_S_S64 (constant (F := F) S_ .f32 0xFF800000#32))
          (Host.reduce FloatOps.maximumf x (constant (F := F) S_ .f32 0xFF800000#32) reducesTo_S64x128_S64_d1 h_S_))))

/-- Log-softmax of every row. -/
def logSoftmax (x : (⟨S64x128, .f32⟩ : BufTy).Contents (Elt F)) : (⟨S64x128, .f32⟩ : BufTy).Contents (Elt F) :=
  subf (shifted (F := F) x)
    (broadcastInDim S64x128 ![0, 1] bcast_S64x1_S64x128_0_1
      (Host.log
        (broadcastInDim S64x1 ![0] bcast_S64_S64x1_0
          (Host.reduceAdd (Host.exp (shifted (F := F) x)) (constant (F := F) S_ .f32 0x00000000#32) reducesTo_S64x128_S64_d1 h_S_))))

/-- The index list (i, i), i < 64, as the gather wants it (negative indices wrapped, which never happens). -/
def diagIdx : (⟨S64x2, .i32⟩ : BufTy).Contents (Elt F) :=
  concatenate S64x2 1
    [⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 64#32)))
          (iotaInDim S64 32 0))⟩,
     ⟨S64x1, broadcastInDim S64x1 ![0] bcast_S64_S64x1_0
        (select (cmpi .slt (iotaInDim S64 32 0) (broadcastInDim S64 ![] bcast_S_S64 (constantI S_ 32 0#32)))
          (addi (iotaInDim S64 32 0) (broadcastInDim S64 ![] bcast_S_S64 (constantI S_ 32 128#32)))
          (iotaInDim S64 32 0))⟩]
    concatenates_S64x1_S64x1_S64x2_d1

/-- The loss: minus the mean of the diagonal of the log-softmax of the masked table. -/
def lossOf (s : (⟨S64x128, .f32⟩ : BufTy).Contents (Elt F)) (lab : (⟨S64, .i32⟩ : BufTy).Contents (Elt F)) :
    (⟨S_, .f32⟩ : BufTy).Contents (Elt F) :=
  Host.negf
    (Host.divf
      (Host.reduceAdd
        (Host.gather gather_S64x128_S64x2_S64_n_01_n_n_01_1_11 (logSoftmax (F := F) (masked (F := F) s lab)) (diagIdx (F := F)))
        (constant (F := F) S_ .f32 0x00000000#32) reducesTo_S64_S_d0 h_S_)
      (constant (F := F) S_ .f32 0x42800000#32))

end Cert.ReferenceIdeal.Loss

end
-- ==== Proof.TailIdeal.lean ====
/-
  The kernel program after its region: the loss of whatever the region left.

  The lines of the program after the pallas_call — the false-negative mask, the fill, log-softmax, the diagonal's
  mean — read the region's result array and the labels and nothing else. Run from the buffers as the region leaves
  them, they end with the program's result at `lossOf` (Proof/Loss.lean) of that array and the labels: the same
  operations in the same order, so the equation is between two spellings of one term.
-/
import proofs.«155816_j17282948399256_1_alg».proof.Proof.FrameIdeal
import proofs.«155816_j17282948399256_1_alg».proof.Proof.Loss
import proofs.«155816_j17282948399256_1_alg».proof.Proof.Gen.ReferenceIdeal
import Idealize.ShloMosaic.Lib.StableHlo.Run
import Idealize.ShloMosaic.Lib.Pipeline.Value

set_option maxRecDepth 16384

noncomputable section

namespace Cert.KernelIdeal.Tail

open Cert.KernelIdeal Cert.KernelIdeal.Gen Cert.KernelIdeal.GenP
open Idealize.ShloMosaic Idealize.ShloMosaic.TcCoe Idealize.SL.Sem Idealize.ShloMosaic.StableHlo

variable {F : FTy → Type} [FloatOps F] [Named F]
variable (m : (ℓ : Loc nD τ sig) → Buf (Elt F) ℓ)

set_option maxHeartbeats 4000000 in
/-- The program's result after the tail is the loss of the region's result array and the labels. -/
theorem result_eq (c : Dev nD) :
    Pipeline.afterTail₀ cfgs (dats m) 0 (V0 m) [hostOps1, hostOps1_1, hostOps1_2, hostOps1_3, hostOps1_4] c main_v36
      = Cert.ReferenceIdeal.Loss.lossOf (F := F) ((dats m 0 c).arrAt 3 cfg0.N) (m ((c : Thread nD τ).loc main_arg3)) := by
  have e0 : Pipeline.withArrays (cfgs 0).spec c (V0 m c) (fun w => (dats m 0 c).arrAt w (cfgs 0).N) (Proc.devRef .tc main_v0)
      = (dats m 0 c).arrAt 3 cfg0.N := Pipeline.withArrays_arr spec0 launch0.win.arr_inj c _ _ 3
  have e3 : Pipeline.withArrays (cfgs 0).spec c (V0 m c) (fun w => (dats m 0 c).arrAt w (cfgs 0).N) (Proc.devRef .tc main_arg3)
      = m ((c : Thread nD τ).loc main_arg3) :=
    (Pipeline.withArrays_of_ne _ c (V0 m c) _ main_arg3 (by exact (by decide : ∀ w, Pipeline.arrRef spec0 w ≠ main_arg3))).trans (V_main_arg3 m c)
  unfold Pipeline.afterTail₀
  simp only [hostOps1, hostOps1_1, hostOps1_2, hostOps1_3, hostOps1_4, List.flatten_cons, List.flatten_nil, List.append_nil, List.cons_append, List.nil_append]
  after_results_simp
  simp only [TRef.ofBuf, TRef.toBuf, cast_eq]
  rw [e0, e3]
  rfl

end Cert.KernelIdeal.Tail

end
-- ==== Proof.KernelRun.lean ====
/-
  The idealized kernel program, run and read: its result is the loss of the score table.

  The region leaves the score table of the three argument arrays in its result array (Proof/OutIdeal.lean); the
  lines after it turn that array and the labels into the loss (Proof/TailIdeal.lean); the argument arrays end as
  they began (inputs of the pipeline are only read, and the labels are touched by no line).
-/
import proofs.«155816_j17282948399256_1_alg».proof.Proof.OutIdeal
import proofs.«155816_j17282948399256_1_alg».proof.Proof.TailIdeal

set_option maxRecDepth 16384

noncomputable section

namespace Cert.KernelIdeal.Whole

open Cert.KernelIdeal Cert.KernelIdeal.Gen Cert.KernelIdeal.GenP
open Idealize.ShloMosaic Idealize.ShloMosaic.TcCoe Idealize.SL.Sem

variable (m : (ℓ : Loc nD τ sig) → Buf (Elt Ideal) ℓ) (ρ : Dev nD → PrngReg)

/-- Every weakly fair execution of the program terminates with its result at the loss of the score table of its
    argument arrays, the arguments unchanged. -/
theorem run : θ_run (defs (F := Ideal)) (onTc (τ := τ) (main (F := Ideal))) ⟨m, fun _ => 0, ρ⟩ fun r => ∀ c : Dev nD,
      r.2.mem ((c.tc : Thread nD τ).loc main_v36)
        = Cert.ReferenceIdeal.Loss.lossOf (F := Ideal)
            (MaxSim.scores (m ((c.tc : Thread nD τ).loc main_arg0)) (m ((c.tc : Thread nD τ).loc main_arg1)) (m ((c.tc : Thread nD τ).loc main_arg2)))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨(((h c).2 main_v36 (Pipeline.mem_restRefs_of main_v36 (by decide) (by decide))).trans (Cert.KernelIdeal.Tail.result_eq m c)).trans
        (congrArg (fun s => Cert.ReferenceIdeal.Loss.lossOf (F := Ideal) s (m ((c.tc : Thread nD τ).loc main_arg3))) (Cert.KernelIdeal.Out.final3 m c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c)⟩)
    (run_main m ρ)

end Cert.KernelIdeal.Whole

end
-- ==== Proof.RefScores.lean ====
/-
  The reference's score table, read off its run one operation at a time.

  Every row of the queries and of the documents is scaled to unit length; the two document families are laid end to
  end (the positive documents first); every document token is dotted with every query token; the largest dot
  product over a document's tokens is kept for each query token; these are averaged over the query's tokens and
  divided by the temperature. Each lemma below says what one of these stages holds at an index, and the last one
  puts them together: the table is the specification's, entry by entry.
-/
import proofs.«155816_j17282948399256_1_alg».proof.Proof.RunRef
import proofs.«155816_j17282948399256_1_alg».proof.Proof.ReadRef
import proofs.«155816_j17282948399256_1_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The two document families, end to end -/

/-- The two document families laid end to end along the document axis: below 64 an entry is the first family's. -/
theorem concat_lo (x1 x2 : S64x256x128.Idx → EReal) (c : Fin 128) (k : Fin 256) (e : Fin 128) (h : c.val < 64) :
    concatenate S128x256x128 0 [⟨S64x256x128, x1⟩, ⟨S64x256x128, x2⟩]
        concatenates_S64x256x128_S64x256x128_S128x256x128_d0 (ix3 c k e) = x1 (ix3 ⟨c.val, h⟩ k e) :=
  concatenate_pair_apply_left 0 x1 x2 _ (ix3 c k e) rfl (ix3 ⟨c.val, h⟩ k e)
    (fun b => match b with | ⟨0, _⟩ => rfl | ⟨1, _⟩ => rfl | ⟨2, _⟩ => rfl)

/-- From 64 on an entry is the second family's, 64 documents back. -/
theorem concat_hi (x1 x2 : S64x256x128.Idx → EReal) (c : Fin 128) (k : Fin 256) (e : Fin 128) (h : ¬ c.val < 64) :
    concatenate S128x256x128 0 [⟨S64x256x128, x1⟩, ⟨S64x256x128, x2⟩]
        concatenates_S64x256x128_S64x256x128_S128x256x128_d0 (ix3 c k e)
      = x2 (ix3 ⟨c.val - 64, by have := c.isLt; omega⟩ k e) :=
  concatenate_pair_apply_right 0 x1 x2 _ (ix3 c k e) rfl rfl (ix3 ⟨c.val - 64, by have := c.isLt; omega⟩ k e)
    (fun b hb => match b, hb with
      | ⟨0, _⟩, hb => absurd rfl hb
      | ⟨1, _⟩, _ => rfl
      | ⟨2, _⟩, _ => rfl)
    (by show (c.val - 64) + 64 = c.val; omega)

/-! ## A maximum along the last axis -/

/-- A maximum taken along the last of four axes is, at (b, c, t), the maximum over k of the entries (b, c, t, k),
    started from the initial value. -/
theorem max_last (y : S64x128x32x256.Idx → EReal) (init : S_.Idx → EReal) (b : Fin 64) (c : Fin 128) (t : Fin 32) :
    Host.reduce (FloatOps.maximumf (F := Ideal) (φ := .f32)) y init reducesTo_S64x128x32x256_S64x128x32_d3 h_S_ (ix3 b c t)
      = (Finset.univ : Finset (Fin 256)).fold max (init (Shape.Idx.first h_S_)) (fun k => y (ix4 b c t k)) := by
  refine (Host.reduce_eq_fold_single _ y init reducesTo_S64x128x32x256_S64x128x32_d3 (by decide) h_S_ (ix3 b c t)).trans ?_
  show (Finset.univ : Finset (Fin 256)).fold max (init (Shape.Idx.first h_S_)) (y ∘ _) = _
  refine congrArg (fun f => (Finset.univ : Finset (Fin 256)).fold max (init (Shape.Idx.first h_S_)) f) (funext fun k => ?_)
  exact congrArg y (funext fun a => Fin.ext (by
    match a with | ⟨0, _⟩ => rfl | ⟨1, _⟩ => rfl | ⟨2, _⟩ => rfl | ⟨3, _⟩ => rfl))

/-! ## Rows scaled to unit length -/

/-- Entry d of token t of query b after the scaling: the entry over the larger of the token's norm and ε. -/
theorem query_row (x0 : (⟨S64x32x128, .f32⟩ : BufTy).Contents (Elt Ideal)) (b : Fin 64) (t : Fin 32) (d : Fin 128) :
    val_main_v7 (F := Ideal) x0 (ix3 b t d) = MaxSim.qUnit x0 b t d := by
  have e1 : ∀ k : Fin 128, idx_main_v1 (idx_main_v2 (idx_main_v6 (ix3 b t d))) k = ix3 b t k := fun k =>
    funext fun a => Fin.ext (by match a with | ⟨0, _⟩ => rfl | ⟨1, _⟩ => rfl | ⟨2, _⟩ => rfl)
  rw [val_main_v7_apply, val_main_v6_apply, val_main_v5_apply, val_main_v3_apply, val_main_v2_apply,
    val_main_v1_apply, val_main_v4_apply, val_main_cst_0_apply, val_main_cst_apply]
  simp only [val_main_v0_apply, e1, Ideal.hostDivf_def, Ideal.maximumf_def, Ideal.hostUnary_sqrt_def,
    Ideal.ofBits_def, Ideal.mulf_def, Ideal.ofBits_zero_f32, zero_add]
  rfl

/-- Entry d of token k of document c of the joined family after the scaling, over the joined family's own row. -/
theorem doc_row (x1 x2 : (⟨S64x256x128, .f32⟩ : BufTy).Contents (Elt Ideal)) (c : Fin 128) (k : Fin 256) (d : Fin 128) :
    val_main_v16 (F := Ideal) x1 x2 (ix3 c k d)
      = MaxSim.unitRow (fun e => val_main_v8 (F := Ideal) x1 x2 (ix3 c k e)) d := by
  have e1 : ∀ e : Fin 128, idx_main_v10 (idx_main_v11 (idx_main_v15 (ix3 c k d))) e = ix3 c k e := fun e =>
    funext fun a => Fin.ext (by match a with | ⟨0, _⟩ => rfl | ⟨1, _⟩ => rfl | ⟨2, _⟩ => rfl)
  rw [val_main_v16_apply, val_main_v15_apply, val_main_v14_apply, val_main_v12_apply, val_main_v11_apply,
    val_main_v10_apply, val_main_v13_apply, val_main_cst_2_apply, val_main_cst_1_apply]
  simp only [val_main_v9_apply, e1, Ideal.hostDivf_def, Ideal.maximumf_def, Ideal.hostUnary_sqrt_def,
    Ideal.ofBits_def, Ideal.mulf_def, Ideal.ofBits_zero_f32, zero_add]
  rfl

/-- A document below 64 is a positive document: its scaled row is the positive family's. -/
theorem doc_row_lo (x1 x2 : (⟨S64x256x128, .f32⟩ : BufTy).Contents (Elt Ideal)) (c : Fin 128) (k : Fin 256) (d : Fin 128)
    (h : c.val < 64) : val_main_v16 (F := Ideal) x1 x2 (ix3 c k d) = MaxSim.dUnit x1 ⟨c.val, h⟩ k d := by
  rw [doc_row]
  exact congrArg (fun f => MaxSim.unitRow f d) (funext fun e => concat_lo x1 x2 c k e h)

/-- A document from 64 on is a negative document, 64 back: its scaled row is the negative family's. -/
theorem doc_row_hi (x1 x2 : (⟨S64x256x128, .f32⟩ : BufTy).Contents (Elt Ideal)) (c : Fin 128) (k : Fin 256) (d : Fin 128)
    (h : ¬ c.val < 64) :
    val_main_v16 (F := Ideal) x1 x2 (ix3 c k d) = MaxSim.dUnit x2 ⟨c.val - 64, by have := c.isLt; omega⟩ k d := by
  rw [doc_row]
  exact congrArg (fun f => MaxSim.unitRow f d) (funext fun e => concat_hi x1 x2 c k e h)

/-! ## Dot products, best matches, means -/

/-- Entry (b, c, t, k) of the re-ordered product: document c's token k dotted with query b's token t. -/
theorem dot_at (x0 : (⟨S64x32x128, .f32⟩ : BufTy).Contents (Elt Ideal)) (x1 x2 : (⟨S64x256x128, .f32⟩ : BufTy).Contents (Elt Ideal))
    (b : Fin 64) (c : Fin 128) (t : Fin 32) (k : Fin 256) :
    val_main_v18 (F := Ideal) x0 x1 x2 (ix4 b c t k)
      = ∑ d : Fin 128, val_main_v16 (F := Ideal) x1 x2 (ix3 c k d) * val_main_v7 (F := Ideal) x0 (ix3 b t d) := by
  rw [val_main_v18_apply, val_main_v17_apply]
  refine Finset.sum_congr rfl fun d _ => ?_
  have el : lidx_main_v17 (idx_main_v18 (ix4 b c t k)) d = ix3 c k d :=
    funext fun a => Fin.ext (by match a with | ⟨0, _⟩ => rfl | ⟨1, _⟩ => rfl | ⟨2, _⟩ => rfl)
  have er : ridx_main_v17 (idx_main_v18 (ix4 b c t k)) d = ix3 b t d :=
    funext fun a => Fin.ext (by match a with | ⟨0, _⟩ => rfl | ⟨1, _⟩ => rfl | ⟨2, _⟩ => rfl)
  rw [el, er]

/-- For a positive document the dot product is the specification's, the two factors in the other order. -/
theorem token_lo (x0 : (⟨S64x32x128, .f32⟩ : BufTy).Contents (Elt Ideal)) (x1 x2 : (⟨S64x256x128, .f32⟩ : BufTy).Contents (Elt Ideal))
    (b : Fin 64) (c : Fin 128) (t : Fin 32) (k : Fin 256) (h : c.val < 64) :
    val_main_v18 (F := Ideal) x0 x1 x2 (ix4 b c t k) = MaxSim.tokenDot x0 x1 b ⟨c.val, h⟩ t k := by
  rw [dot_at]
  refine Finset.sum_congr rfl fun d _ => ?_
  rw [doc_row_lo x1 x2 c k d h, query_row, mul_comm]

/-- For a negative document likewise. -/
theorem token_hi (x0 : (⟨S64x32x128, .f32⟩ : BufTy).Contents (Elt Ideal)) (x1 x2 : (⟨S64x256x128, .f32⟩ : BufTy).Contents (Elt Ideal))
    (b : Fin 64) (c : Fin 128) (t : Fin 32) (k : Fin 256) (h : ¬ c.val < 64) :
    val_main_v18 (F := Ideal) x0 x1 x2 (ix4 b c t k)
      = MaxSim.tokenDot x0 x2 b ⟨c.val - 64, by have := c.isLt; omega⟩ t k := by
  rw [dot_at]
  refine Finset.sum_congr rfl fun d _ => ?_
  rw [doc_row_hi x1 x2 c k d h, query_row, mul_comm]

/-- The best match of query b's token t in document c: the maximum from −∞ over the document's tokens. -/
theorem best_at (x0 : (⟨S64x32x128, .f32⟩ : BufTy).Contents (Elt Ideal)) (x1 x2 : (⟨S64x256x128, .f32⟩ : BufTy).Contents (Elt Ideal))
    (b : Fin 64) (c : Fin 128) (t : Fin 32) :
    val_main_v19 (F := Ideal) x0 x1 x2 (ix3 b c t)
      = (Finset.univ : Finset (Fin 256)).fold max (Ideal.ofBits .f32 0xFF800000#32)
          (fun k => val_main_v18 (F := Ideal) x0 x1 x2 (ix4 b c t k)) := by
  unfold val_main_v19
  exact max_last _ _ b c t

/-- The mean over the query's 32 tokens of the best matches, at (b, c). -/
theorem mean_at (x0 : (⟨S64x32x128, .f32⟩ : BufTy).Contents (Elt Ideal)) (x1 x2 : (⟨S64x256x128, .f32⟩ : BufTy).Contents (Elt Ideal))
    (b : Fin 64) (c : Fin 128) :
    val_main_v22 (F := Ideal) x0 x1 x2 (ix2 b c)
      = Ideal.div (∑ t : Fin 32, val_main_v19 (F := Ideal) x0 x1 x2 (ix3 b c t)) (Ideal.ofBits .f32 0x42000000#32) := by
  have e1 : ∀ t : Fin 32, idx_main_v20 (ix2 b c) t = ix3 b c t := fun t =>
    funext fun a => Fin.ext (by match a with | ⟨0, _⟩ => rfl | ⟨1, _⟩ => rfl | ⟨2, _⟩ => rfl)
  rw [val_main_v22_apply, val_main_v21_apply, val_main_cst_5_apply, val_main_v20_apply, val_main_cst_4_apply]
  simp only [e1, Ideal.hostDivf_def, Ideal.ofBits_def, Ideal.ofBits_zero_f32, zero_add]

/-- MaxSim of query b against positive document c. -/
theorem maxsim_lo (x0 : (⟨S64x32x128, .f32⟩ : BufTy).Contents (Elt Ideal)) (x1 x2 : (⟨S64x256x128, .f32⟩ : BufTy).Contents (Elt Ideal))
    (b : Fin 64) (c : Fin 128) (h : c.val < 64) :
    val_main_v22 (F := Ideal) x0 x1 x2 (ix2 b c) = MaxSim.maxSim x0 x1 b ⟨c.val, h⟩ := by
  rw [mean_at]
  refine congrArg (fun s => Ideal.div s (Ideal.ofBits .f32 0x42000000#32)) (Finset.sum_congr rfl fun t _ => ?_)
  rw [best_at]
  exact congrArg (fun f => (Finset.univ : Finset (Fin 256)).fold max (Ideal.ofBits .f32 0xFF800000#32) f)
    (funext fun k => token_lo x0 x1 x2 b c t k h)

/-- MaxSim of query b against negative document c − 64. -/
theorem maxsim_hi (x0 : (⟨S64x32x128, .f32⟩ : BufTy).Contents (Elt Ideal)) (x1 x2 : (⟨S64x256x128, .f32⟩ : BufTy).Contents (Elt Ideal))
    (b : Fin 64) (c : Fin 128) (h : ¬ c.val < 64) :
    val_main_v22 (F := Ideal) x0 x1 x2 (ix2 b c) = MaxSim.maxSim x0 x2 b ⟨c.val - 64, by have := c.isLt; omega⟩ := by
  rw [mean_at]
  refine congrArg (fun s => Ideal.div s (Ideal.ofBits .f32 0x42000000#32)) (Finset.sum_congr rfl fun t _ => ?_)
  rw [best_at]
  exact congrArg (fun f => (Finset.univ : Finset (Fin 256)).fold max (Ideal.ofBits .f32 0xFF800000#32) f)
    (funext fun k => token_hi x0 x1 x2 b c t k h)

/-! ## The score table -/

/-- The reference's score table is the specification's: MaxSim against the positive documents in columns below 64,
    against the negative ones from 64 on, divided by the temperature. -/
theorem scores_eq (x0 : (⟨S64x32x128, .f32⟩ : BufTy).Contents (Elt Ideal)) (x1 x2 : (⟨S64x256x128, .f32⟩ : BufTy).Contents (Elt Ideal)) :
    Cert.ReferenceIdeal.Read.val_main_v24 (F := Ideal) x0 x1 x2 = MaxSim.scores x0 x1 x2 := by
  funext j
  obtain ⟨b, c, rfl⟩ : ∃ (b : Fin 64) (c : Fin 128), j = ix2 b c := ⟨j 0, j 1, eq_ix2 j⟩
  rw [MaxSim.scores_ix2, val_main_v24_apply, val_main_v23_apply, val_main_cst_6_apply]
  simp only [Ideal.hostDivf_def, Ideal.ofBits_def]
  rw [MaxSim.div_temp]
  unfold MaxSim.scoreAt
  by_cases h : c.val < 64
  · rw [dif_pos h, maxsim_lo x0 x1 x2 b c h]
  · rw [dif_neg h, maxsim_hi x0 x1 x2 b c h]

end Cert.ReferenceIdeal.RefValue

end
-- ==== Proof.RefRun.lean ====
/-
  The reference's run, in the specification's words.

  After its score table the reference masks the false negatives of the table's left half, takes the log-softmax of
  every row and returns minus the mean of the diagonal: the loss of the table and the labels. Its operations after
  the table are that loss's own definition applied to the table, term for term, for any float values. At the
  extended reals the table is the specification's, so every run of the reference ends with the loss of the
  specification's score table of the three argument arrays and the labels, and the four arguments unchanged.
-/
import proofs.«155816_j17282948399256_1_alg».proof.Proof.RefScores
import proofs.«155816_j17282948399256_1_alg».proof.Proof.Loss
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- What the reference computes from its score table and the labels is the loss of that table, for any float
    values: the two are one term. -/
theorem loss_eq {F : FTy → Type} [FloatOps F] (x0 : (⟨S64x32x128, .f32⟩ : BufTy).Contents (Elt F))
    (x1 x2 : (⟨S64x256x128, .f32⟩ : BufTy).Contents (Elt F)) (x3 : (⟨S64, .i32⟩ : BufTy).Contents (Elt F)) :
    Cert.ReferenceIdeal.Read.val_main_v60 (F := F) x0 x1 x2 x3
      = Cert.ReferenceIdeal.Loss.lossOf (F := F) (Cert.ReferenceIdeal.Read.val_main_v24 (F := F) x0 x1 x2) x3 := rfl

/-- At the extended reals every run of the reference ends with the loss of the specification's score table of the
    queries and the two document families, under the labels, and leaves its four arguments as they were. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v60) = Cert.ReferenceIdeal.Loss.lossOf (F := Ideal) (MaxSim.scores (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run (defs (F := Ideal)) _ _).mono
    (fun _ h c => ⟨by rw [(h c).1, Cert.ReferenceIdeal.Read.val_main_v60_eq, loss_eq, scores_eq], (h c).2⟩)
    (Cert.ReferenceIdeal.Value.run (F := Ideal) m ρ)

end Cert.ReferenceIdeal.RefValue

end
-- ==== Proof.lean ====
/-
  The kernel computes ColBERT's MaxSim loss: every token row of the queries and of the 64 positive and 64 negative
  documents is scaled to unit length, the score of query b against document c is the mean over the query's 32
  tokens of the largest dot product with any of the document's 256 tokens, divided by the temperature; scores of
  false negatives (same label, off the diagonal) are overwritten by a large negative fill, and the loss is minus
  the mean of the diagonal of the row-wise log-softmax.

  The Pallas kernel computes the [64, 128] score table in two grid points of 32 queries each: it scales the documents
  once per point into two scratch buffers, scales its query tile, and in two counted loops over the 64 positive and
  the 64 negative documents multiplies the tile against one document, takes the row maxima and their mean, and stores
  the 32 means as one row of a result scratch; the two result scratches, transposed and laid side by side, are
  multiplied by the reciprocal of the temperature. The reference computes the same table with one einsum and
  DIVIDES by the temperature. Over the extended reals the two tables are equal entry by entry: the same sums,
  maxima and quotients in the same order, the product's two factors exchanged, and the last step one law — dividing
  by the word 13421773/268435456 is multiplying by 268435456/13421773, which is the value the kernel's constant 20.0
  is NAMED in the idealized kernel (`preserves`: the one entry of the idealization's ledger). What both programs then
  do with the table is the same line of operations (Proof/Loss.lean), never opened. Nothing needs the inputs finite.

  The pieces: Proof/Spec.lean (the table as one function), Proof/TripsIdeal.lean, Proof/RowsIdeal.lean,
  Proof/DocsIdeal.lean, Proof/PayIdeal.lean, Proof/OutIdeal.lean (the kernel's table), Proof/TailIdeal.lean and
  Proof/KernelRun.lean (the kernel program's result), Proof/RefScores.lean and Proof/RefRun.lean (the reference's).
-/
import proofs.«155816_j17282948399256_1_alg».proof.Defs
import proofs.«155816_j17282948399256_1_alg».proof.Proof.Gen.Kernel
import proofs.«155816_j17282948399256_1_alg».proof.Proof.Gen.KernelIdeal
import proofs.«155816_j17282948399256_1_alg».proof.Proof.Gen.ReferenceIdeal
import proofs.«155816_j17282948399256_1_alg».proof.Proof.Gen.Pre_finite_inputs
import proofs.«155816_j17282948399256_1_alg».proof.Proof.FrameKernel
import proofs.«155816_j17282948399256_1_alg».proof.Proof.KernelRun
import proofs.«155816_j17282948399256_1_alg».proof.Proof.RefRun
import Idealize.ShloMosaic.PureOps.IdealRules
import Idealize.ShloMosaic.Adequacy
import Idealize.ShloMosaic.Init

noncomputable section

namespace Cert.Proof

open Idealize.ShloMosaic Idealize.ShloMosaic.TcCoe Idealize.SL.Sem

/-- The word-level kernel program runs, faults nowhere and leaves its arguments as they were. -/
theorem frame_k : Cert.frame_Kernel := fun m ρ _ => Cert.Kernel.GenP.frame m ρ

/-- So does its idealization. -/
theorem frame_ki : Cert.frame_KernelIdeal := fun m ρ _ => Cert.KernelIdeal.GenP.frame m ρ

/-- The reference runs to its composed term and keeps its arguments. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite of the idealization: the constant 20.0 is read as 268435456/13421773, the exact reciprocal of
    the reference's temperature word. -/
theorem preserves : Cert.preserves_Kernel_KernelIdeal :=
  IdealRules.named_const.statement Cert.KernelIdeal.κ "fold_c_268435456_13421773" .f32 0x41A00000#32 ((268435456 / 13421773 : ℝ) : EReal) rfl

/-- From memories that agree on the arguments both idealized programs end at the loss of ONE score table. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
